-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg3 : IVec S1000000 32) (main_arg4 : IVec S1000000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 4294867296#32
  let main_v54 : IVec S1000000 32 := broadcastInDim S1000000 ![] bcast_S_S1000000 main_c_20
  let main_v55 : IVec S1000000 1 := cmpi .sge main_arg3 main_v54
  let main_c_21 : IVec S_ 32 := constantI S_ 32 100000#32
  let main_v56 : IVec S1000000 32 := broadcastInDim S1000000 ![] bcast_S_S1000000 main_c_21
  let main_v57 : IVec S1000000 1 := cmpi .slt main_arg3 main_v56
  let main_v58 : IVec S1000000 1 := andi main_v55 main_v57
  let main_c_22 : IVec S_ 1 := constantI S_ 1 1#1
  let main_v59 : IVec S_ 1 := (fun x v => Host.reduce IntOp.andi x v reducesTo_S1000000_S_d0 h_S_) main_v58 main_c_22
  let main_v60 : IVec S_ 1 := andi main_v53 main_v59
  let main_c_23 : IVec S_ 32 := constantI S_ 32 4294867296#32
  let main_v61 : IVec S1000000 32 := broadcastInDim S1000000 ![] bcast_S_S1000000 main_c_23
  let main_v62 : IVec S1000000 1 := cmpi .sge main_arg4 main_v61
  let main_c_24 : IVec S_ 32 := constantI S_ 32 100000#32
  let main_v63 : IVec S1000000 32 := broadcastInDim S1000000 ![] bcast_S_S1000000 main_c_24
  let main_v64 : IVec S1000000 1 := cmpi .slt main_arg4 main_v63
  let main_v65 : IVec S1000000 1 := andi main_v62 main_v64
  let main_c_25 : IVec S_ 1 := constantI S_ 1 1#1
  let main_v66 : IVec S_ 1 := (fun x v => Host.reduce IntOp.andi x v reducesTo_S1000000_S_d0 h_S_) main_v65 main_c_25
  let main_v67 : IVec S_ 1 := andi main_v60 main_v66
  main_v67

def fn_part2 {F : FTy → Type} [FloatOps F] (main_arg3 : IVec S1000000 32) (main_arg4 : IVec S1000000 32) (main_arg9 : FVec F S128x128 .f32) (main_arg10 : FVec F S128 .f32) (main_arg11 : FVec F S128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_v48 main_v49 main_v50

def fn_part1 {F : FTy → Type} [FloatOps F] (main_arg3 : IVec S1000000 32) (main_arg4 : IVec S1000000 32) (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_arg11 main_arg12 main_v33

def fn {F : FTy → Type} [FloatOps F] (main_arg0 : FVec F S1000000x128 .f32) (main_arg1 : FVec F S100000x128 .f32) (main_arg2 : FVec F S100000x128 .f32) (main_arg3 : IVec S1000000 32) (main_arg4 : IVec S1000000 32) (main_arg5 : FVec F S128x128 .f32) (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_v13 main_v16
-- ==== Kernel.lean ====
abbrev S1000000x128 : Shape := ⟨2, ![1000000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S1x128 : Shape := ⟨2, ![1, 128]⟩
abbrev S2000x128 : Shape := ⟨2, ![2000, 128]⟩
abbrev S1000000x1 : Shape := ⟨2, ![1000000, 1]⟩
abbrev S1 : Shape := ⟨1, ![1]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 73
  | .vmem => 25
  | .smem => 0
  | _ => 0

abbrev bufTy : (tb : Table) → Fin (tcTables nBuf tb) → BufTy
  | .hbm, ⟨0, _⟩ => ⟨S1000000x128, .f32⟩
  | .hbm, ⟨1, _⟩ => ⟨S100000x128, .f32⟩
  | .hbm, ⟨2, _⟩ => ⟨S100000x128, .f32⟩
  | .hbm, ⟨3, _⟩ => ⟨S1000000, .i32⟩
  | .hbm, ⟨4, _⟩ => ⟨S1000000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128x128, .f32⟩
  | .hbm, ⟨16, _⟩ => ⟨S1x128, .f32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1, .i32⟩
  | .hbm, ⟨30, _⟩ => ⟨S_, .i32⟩
  | .hbm, ⟨31, _⟩ => ⟨S1000000x1, .i32⟩
  | .hbm, ⟨32, _⟩ => ⟨S1000000x1, .i1⟩
  | .hbm, ⟨33, _⟩ => ⟨S1x1, .i32⟩
  | .hbm, ⟨34, _⟩ => ⟨S1000000x1, .i32⟩
  | .hbm, ⟨35, _⟩ => ⟨S1000000x1, .i1⟩
  | .hbm, ⟨36, _⟩ => ⟨S1000000x1, .i1⟩
  | .hbm, ⟨37, _⟩ => ⟨S_, .i1⟩
  | .hbm, ⟨38, _⟩ => ⟨S1000000, .i1⟩
  | .hbm, ⟨39, _⟩ => ⟨S1000000x128, .f32⟩
  | .hbm, ⟨40, _⟩ => ⟨S1000000x128, .i1⟩
  | .hbm, ⟨41, _⟩ => ⟨S_, .f32⟩
  | .hbm, ⟨42, _⟩ => ⟨S1000000x128, .f32⟩
  | .hbm, ⟨43, _⟩ => ⟨S1000000x128, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1, .i32⟩
  | .hbm, ⟨53, _⟩ => ⟨S_, .i32⟩
  | .hbm, ⟨54, _⟩ => ⟨S1000000x1, .i32⟩
  | .hbm, ⟨55, _⟩ => ⟨S1000000x1, .i1⟩
  | .hbm, ⟨56, _⟩ => ⟨S1x1, .i32⟩
  | .hbm, ⟨57, _⟩ => ⟨S1000000x1, .i32⟩
  | .hbm, ⟨58, _⟩ => ⟨S1000000x1, .i1⟩
  | .hbm, ⟨59, _⟩ => ⟨S1000000x1, .i1⟩
  | .hbm, ⟨60, _⟩ => ⟨S_, .i1⟩
  | .hbm, ⟨61, _⟩ => ⟨S1000000, .i1⟩
  | .hbm, ⟨62, _⟩ => ⟨S1000000x128, .f32⟩
  | .hbm, ⟨63, _⟩ => ⟨S1000000x128, .i1⟩
  | .hbm, ⟨64, _⟩ => ⟨S_, .f32⟩
  | .hbm, ⟨65, _⟩ => ⟨S1000000x128, .f32⟩
  | .hbm, ⟨66, _⟩ => ⟨S1000000x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1000000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S128 : S_.BroadcastsInDim S128 (![] : Fin 0 → Fin S128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S2000x128_S128x128_S2000x128_1_0_0_1_n_n_wf : DotDims.WF S2000x128 S128x128 S2000x128 [1] [0] [0] [1] [] []
  gather_S100000x128_S1000000x1_S1000000x128_1_0_n_n_0_1_1128_wf : GatherDims.WF S100000x128 S1000000x1 S1000000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S1000000x128.size a
  hwx2_0 : ∀ i : grid2.Coords, EltTy.bits .f32 = 32 ∨ (Rect.block (s := S1000000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S1000000x128.size a
  hwx2_1 : ∀ i : grid2.Coords, EltTy.bits .f32 = 32 ∨ (Rect.block (s := S1000000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S1000000x128.size a
  hwx2_2 : ∀ i : grid2.Coords, EltTy.bits .f32 = 32 ∨ (Rect.block (s := S1000000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S1000000x128.size a
  hwx2_8 : ∀ i : grid2.Coords, EltTy.bits .f32 = 32 ∨ (Rect.block (s := S1000000x128) S5000x128.size (cc2_transform_8 i) (hinb2_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1000000x1 : Shape := ⟨2, ![1000000, 1]⟩

abbrev nBuf : Space → Nat
  | .hbm => 100
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S100000x128, .f32⟩
  | .hbm, ⟨2, _⟩ => ⟨S100000x128, .f32⟩
  | .hbm, ⟨3, _⟩ => ⟨S1000000, .i32⟩
  | .hbm, ⟨4, _⟩ => ⟨S1000000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S1000000x128, .f32⟩
  | .hbm, ⟨15, _⟩ => ⟨S128x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .f32⟩
  | .hbm, ⟨31, _⟩ => ⟨S1000000x128, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x128, .f32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S1000000x128, .f32⟩
  | .hbm, ⟨49, _⟩ => ⟨S1000000x128, .f32⟩
  | .hbm, ⟨50, _⟩ => ⟨S1000000x128, .f32⟩
  | .hbm, ⟨51, _⟩ => ⟨S128x128, .f32⟩
  | .hbm, ⟨52, _⟩ => ⟨S1000000x128, .f32⟩
  | .hbm, ⟨53, _⟩ => ⟨S1x128, .f32⟩
  | .hbm, ⟨54, _⟩ => ⟨S1000000x128, .f32⟩
  | .hbm, ⟨55, _⟩ => ⟨S1000000x128, .f32⟩
  | .hbm, ⟨56, _⟩ => ⟨S_, .f32⟩
  | .hbm, ⟨57, _⟩ => ⟨S1000000, .f32⟩
  | .hbm, ⟨58, _⟩ => ⟨S1000000x1, .f32⟩
  | .hbm, ⟨59, _⟩ => ⟨S_, .f32⟩
  | .hbm, ⟨60, _⟩ => ⟨S1000000x1, .f32⟩
  | .hbm, ⟨61, _⟩ => ⟨S1000000x1, .f32⟩
  | .hbm, ⟨62, _⟩ => ⟨S_, .i32⟩
  | .hbm, ⟨63, _⟩ => ⟨S_, .f32⟩
  | .hbm, ⟨64, _⟩ => ⟨S1000000, .f32⟩
  | .hbm, ⟨65, _⟩ => ⟨S1000000x1, .f32⟩
  | .hbm, ⟨66, _⟩ => ⟨S_, .f32⟩
  | .hbm, ⟨67, _⟩ => ⟨S1000000x1, .f32⟩
  | .hbm, ⟨68, _⟩ => ⟨S1000000x1, .f32⟩
  | .hbm, ⟨69, _⟩ => ⟨S1000000x128, .f32⟩
  | .hbm, ⟨70, _⟩ => ⟨S1000000x128, .f32⟩
  | .hbm, ⟨71, _⟩ => ⟨S1000000x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1000000, .f32⟩
  | .hbm, ⟨77, _⟩ => ⟨S1000000x1, .f32⟩
  | .hbm, ⟨78, _⟩ => ⟨S1000000x1, .f32⟩
  | .hbm, ⟨79, _⟩ => ⟨S1000000x1, .f32⟩
  | .hbm, ⟨80, _⟩ => ⟨S_, .f32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S1000000x1, .f32⟩
  | .hbm, ⟨85, _⟩ => ⟨S1000000x1, .f32⟩
  | .hbm, ⟨86, _⟩ => ⟨S1000000x128, .f32⟩
  | .hbm, ⟨87, _⟩ => ⟨S1000000x128, .f32⟩
  | .hbm, ⟨88, _⟩ => ⟨S_, .f32⟩
  | .hbm, ⟨89, _⟩ => ⟨S1000000x1, .f32⟩
  | .hbm, ⟨90, _⟩ => ⟨S1000000x1, .f32⟩
  | .hbm, ⟨91, _⟩ => ⟨S1000000x1, .f32⟩
  | .hbm, ⟨92, _⟩ => ⟨S1000000x128, .f32⟩
  | .hbm, ⟨93, _⟩ => ⟨S1000000x128, .f32⟩
  | .hbm, ⟨94, _⟩ => ⟨S1x128, .f32⟩
  | .hbm, ⟨95, _⟩ => ⟨S1000000x128, .f32⟩
  | .hbm, ⟨96, _⟩ => ⟨S1000000x128, .f32⟩
  | .hbm, ⟨97, _⟩ => ⟨S1x128, .f32⟩
  | .hbm, ⟨98, _⟩ => ⟨S1000000x128, .f32⟩
  | .hbm, ⟨99, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_cst_2 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_cst_3 : Ref sig .tc := ⟨.hbm, 80, rfl⟩
abbrev main_call1_v13 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_5 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  dot_S1000000x128_S128x128_S1000000x128_1_0_0_1_n_n_wf : DotDims.WF S1000000x128 S128x128 S1000000x128 [1] [0] [0] [1] [] []
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.EdgeValueBlocks.lean ====
/-
  The fused edge region: the blocks its body loads, read off the arrays.

  The region runs 200 tiles. The edge features, the two gathered node projections and the output are cut into tiles of
  5000 rows, tile t at block (t, 0): row p of tile t is row 5000 t + p of the array. The two weight matrices and the three
  rows are one block each, at block (0, 0) at every tile: the block is the whole array.
-/
import proofs.«429735_j71863392796798_1_alg».proof.Proof.Gen.KernelIdeal.Frame
import proofs.«429735_j71863392796798_1_alg».proof.Proof.LibDenseRows
import Idealize.ShloMosaic.Lib.Pipeline.Value

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx DenseRows

variable (V : (c : Dev nD) → (b : Ref sig .tc) → Buf (Elt Ideal) ((c : Thread nD τ).loc b))

/-- The body's loads and its store are at offsets (0, 0) of their buffers. -/
theorem zero_offsets : (![0, 0] : Fin 2 → Nat) = fun _ => 0 := funext fun a => by fin_cases a <;> rfl

/-- The printed index maps, decided over the 200 tiles: the three row-tiled inputs and the output are at block (t, 0). -/
theorem tiled_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_8.index t (0 : Fin 2) = t.val ∧ win2_8.index t (1 : Fin 2) = 0 :=
  (by decide +kernel : ∀ t : Fin grid2.N, _)

/-- The weights and the three rows are at block (0, 0) at every tile. -/
theorem whole_index : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- There are 200 tiles. -/
theorem tiles_lt (t : Fin cfg2.N) : t.val < 200 := Nat.lt_of_lt_of_eq t.isLt N_2

/-! ## The blocks the body loads, read off the arrays -/

/-- Row p of tile t of window 0's array is row 5000 t + p of the array. -/
theorem tile0 (c : Dev nD) (t : Fin cfg2.N) (p : Fin 5000) (q : Fin 128) :
    (iblk2 V c 0 t : Mat 5000 128) (ix2 p q)
      = (V c (Pipeline.arrRef spec2 0) : Mat 1000000 128) (ix2 ⟨5000 * t.val + p.val, by have := tiles_lt t; omega⟩ q) := by
  obtain ⟨e0, e1, e2, e3, e4, e5, -⟩ := tiled_index t
  show V c (Pipeline.arrRef spec2 0) (((cfg2.win 0).blk t).view.emb (ix2 p q)) = _
  congr 1
  funext a; apply Fin.ext
  match a with
  | ⟨0, _⟩ => show win2_0.index t (0 : Fin 2) * 5000 + 1 * p.val = 5000 * t.val + p.val; omega
  | ⟨1, _⟩ => show win2_0.index t (1 : Fin 2) * 128 + 1 * q.val = q.val; omega

/-- Row p of tile t of window 1's array is row 5000 t + p of the array. -/
theorem tile1 (c : Dev nD) (t : Fin cfg2.N) (p : Fin 5000) (q : Fin 128) :
    (iblk2 V c 1 t : Mat 5000 128) (ix2 p q)
      = (V c (Pipeline.arrRef spec2 1) : Mat 1000000 128) (ix2 ⟨5000 * t.val + p.val, by have := tiles_lt t; omega⟩ q) := by
  obtain ⟨e0, e1, e2, e3, e4, e5, -⟩ := tiled_index t
  show V c (Pipeline.arrRef spec2 1) (((cfg2.win 1).blk t).view.emb (ix2 p q)) = _
  congr 1
  funext a; apply Fin.ext
  match a with
  | ⟨0, _⟩ => show win2_1.index t (0 : Fin 2) * 5000 + 1 * p.val = 5000 * t.val + p.val; omega
  | ⟨1, _⟩ => show win2_1.index t (1 : Fin 2) * 128 + 1 * q.val = q.val; omega

/-- Row p of tile t of window 2's array is row 5000 t + p of the array. -/
theorem tile2 (c : Dev nD) (t : Fin cfg2.N) (p : Fin 5000) (q : Fin 128) :
    (iblk2 V c 2 t : Mat 5000 128) (ix2 p q)
      = (V c (Pipeline.arrRef spec2 2) : Mat 1000000 128) (ix2 ⟨5000 * t.val + p.val, by have := tiles_lt t; omega⟩ q) := by
  obtain ⟨e0, e1, e2, e3, e4, e5, -⟩ := tiled_index t
  show V c (Pipeline.arrRef spec2 2) (((cfg2.win 2).blk t).view.emb (ix2 p q)) = _
  congr 1
  funext a; apply Fin.ext
  match a with
  | ⟨0, _⟩ => show win2_2.index t (0 : Fin 2) * 5000 + 1 * p.val = 5000 * t.val + p.val; omega
  | ⟨1, _⟩ => show win2_2.index t (1 : Fin 2) * 128 + 1 * q.val = q.val; omega

/-- Window 3's block at every tile is its whole array. -/
theorem whole3 (c : Dev nD) (t : Fin cfg2.N) : (iblk2 V c 3 t : Mat 128 128) = V c (Pipeline.arrRef spec2 3) := by
  obtain ⟨e0, e1, e2, e3, e4, e5, e6, e7, e8, e9⟩ := whole_index t
  funext y
  show V c (Pipeline.arrRef spec2 3) (((cfg2.win 3).blk t).view.emb y) = _
  congr 1
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block at every tile is its whole array. -/
theorem whole4 (c : Dev nD) (t : Fin cfg2.N) : (iblk2 V c 4 t : Mat 128 128) = V c (Pipeline.arrRef spec2 4) := by
  obtain ⟨e0, e1, e2, e3, e4, e5, e6, e7, e8, e9⟩ := whole_index t
  funext y
  show V c (Pipeline.arrRef spec2 4) (((cfg2.win 4).blk t).view.emb y) = _
  congr 1
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every tile is its whole array. -/
theorem whole5 (c : Dev nD) (t : Fin cfg2.N) : (iblk2 V c 5 t : Mat 1 128) = V c (Pipeline.arrRef spec2 5) := by
  obtain ⟨e0, e1, e2, e3, e4, e5, e6, e7, e8, e9⟩ := whole_index t
  funext y
  show V c (Pipeline.arrRef spec2 5) (((cfg2.win 5).blk t).view.emb y) = _
  congr 1
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block at every tile is its whole array. -/
theorem whole6 (c : Dev nD) (t : Fin cfg2.N) : (iblk2 V c 6 t : Mat 1 128) = V c (Pipeline.arrRef spec2 6) := by
  obtain ⟨e0, e1, e2, e3, e4, e5, e6, e7, e8, e9⟩ := whole_index t
  funext y
  show V c (Pipeline.arrRef spec2 6) (((cfg2.win 6).blk t).view.emb y) = _
  congr 1
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block at every tile is its whole array. -/
theorem whole7 (c : Dev nD) (t : Fin cfg2.N) : (iblk2 V c 7 t : Mat 1 128) = V c (Pipeline.arrRef spec2 7) := by
  obtain ⟨e0, e1, e2, e3, e4, e5, e6, e7, e8, e9⟩ := whole_index t
  funext y
  show V c (Pipeline.arrRef spec2 7) (((cfg2.win 7).blk t).view.emb y) = _
  congr 1
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

end Cert.KernelIdeal.EdgeValue
end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«429735_j71863392796798_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.LibNormRows.lean ====
/-
  SiLU and layer normalisation over matrices of extended reals, row by row.

  silu is x · 1/(1 + e^(-x)) entry by entry. For a divisor d, a row's mean is its sum over d, the centred matrix
  subtracts each row's mean from the row's entries, a row's variance is the sum of the squares of its centred
  entries over d, and layerNorm multiplies each centred entry by the reciprocal square root of its row's variance
  plus ε, scales it by a one-row matrix and shifts it by another. The divisor and ε are arbitrary extended reals:
  nothing here evaluates them.

  Each function is ROW-LOCAL: row p of the result depends on row p of the operand only, so the result computed from
  a band of rows of a matrix is that band of rows of the result computed from the whole matrix.
-/
import proofs.«429735_j71863392796798_1_alg».proof.Proof.LibDenseRows

noncomputable section

open scoped BigOperators

namespace NormRows

open Idealize.ShloMosaic Idealize.ShloMosaic.ValueIdx DenseRows

/-! ## The functions -/

/-- x · logistic x, entry by entry. -/
def silu {m n : Nat} (Z : Mat m n) : Mat m n := fun i => Z i * Ideal.logistic (Z i)

/-- The sum of three matrices entry by entry, associated to the left. -/
def add3 {m n : Nat} (X S D : Mat m n) : Mat m n := fun i => X i + S i + D i

/-- Row a's sum over the divisor d. -/
def rowMean {m n : Nat} (d : EReal) (Z : Mat m n) (a : Fin m) : EReal :=
  Ideal.div (∑ c : Fin n, Z (ix2 a c)) d

/-- Each entry less its row's mean. -/
def centered {m n : Nat} (d : EReal) (Z : Mat m n) : Mat m n := fun i => Z i - rowMean d Z (i 0)

/-- Row a's sum of squared centred entries over the divisor d. -/
def rowVar {m n : Nat} (d : EReal) (Z : Mat m n) (a : Fin m) : EReal :=
  Ideal.div (∑ c : Fin n, centered d Z (ix2 a c) * centered d Z (ix2 a c)) d

/-- Layer normalisation of every row, scaled by the row g and shifted by the row b. -/
def layerNorm {m n : Nat} (d ε : EReal) (Z : Mat m n) (g b : Mat 1 n) : Mat m n :=
  fun i => centered d Z i * Ideal.rsqrt (rowVar d Z (i 0) + ε) * g (ix2 (0 : Fin 1) (i 1)) + b (ix2 (0 : Fin 1) (i 1))

theorem silu_apply {m n : Nat} (Z : Mat m n) (i) : silu Z i = Z i * Ideal.logistic (Z i) := rfl

theorem add3_apply {m n : Nat} (X S D : Mat m n) (i) : add3 X S D i = X i + S i + D i := rfl

theorem centered_apply {m n : Nat} (d : EReal) (Z : Mat m n) (a : Fin m) (q : Fin n) :
    centered d Z (ix2 a q) = Z (ix2 a q) - rowMean d Z a := rfl

theorem layerNorm_apply {m n : Nat} (d ε : EReal) (Z : Mat m n) (g b : Mat 1 n) (a : Fin m) (q : Fin n) :
    layerNorm d ε Z g b (ix2 a q)
      = centered d Z (ix2 a q) * Ideal.rsqrt (rowVar d Z a + ε) * g (ix2 (0 : Fin 1) q) + b (ix2 (0 : Fin 1) q) := rfl

/-! ## Row-locality -/

theorem silu_rows {m M n : Nat} (X : Mat m n) (A : Mat M n) (p : Fin m) (P : Fin M)
    (h : ∀ c, X (ix2 p c) = A (ix2 P c)) (q : Fin n) : silu X (ix2 p q) = silu A (ix2 P q) := by
  rw [silu_apply, silu_apply, h q]

theorem add3_rows {m M n : Nat} (X S D : Mat m n) (A T E : Mat M n) (p : Fin m) (P : Fin M)
    (hX : ∀ c, X (ix2 p c) = A (ix2 P c)) (hS : ∀ c, S (ix2 p c) = T (ix2 P c)) (hD : ∀ c, D (ix2 p c) = E (ix2 P c))
    (q : Fin n) : add3 X S D (ix2 p q) = add3 A T E (ix2 P q) := by
  rw [add3_apply, add3_apply, hX q, hS q, hD q]

theorem rowMean_rows {m M n : Nat} (d : EReal) (X : Mat m n) (A : Mat M n) (p : Fin m) (P : Fin M)
    (h : ∀ c, X (ix2 p c) = A (ix2 P c)) : rowMean d X p = rowMean d A P := by
  unfold rowMean
  exact congrArg (fun s => Ideal.div s d) (Finset.sum_congr rfl fun c _ => h c)

theorem centered_rows {m M n : Nat} (d : EReal) (X : Mat m n) (A : Mat M n) (p : Fin m) (P : Fin M)
    (h : ∀ c, X (ix2 p c) = A (ix2 P c)) (q : Fin n) : centered d X (ix2 p q) = centered d A (ix2 P q) := by
  rw [centered_apply, centered_apply, h q, rowMean_rows d X A p P h]

theorem rowVar_rows {m M n : Nat} (d : EReal) (X : Mat m n) (A : Mat M n) (p : Fin m) (P : Fin M)
    (h : ∀ c, X (ix2 p c) = A (ix2 P c)) : rowVar d X p = rowVar d A P := by
  unfold rowVar
  exact congrArg (fun s => Ideal.div s d)
    (Finset.sum_congr rfl fun c _ => by rw [centered_rows d X A p P h c])

theorem layerNorm_rows {m M n : Nat} (d ε : EReal) (X : Mat m n) (A : Mat M n) (g b : Mat 1 n) (p : Fin m) (P : Fin M)
    (h : ∀ c, X (ix2 p c) = A (ix2 P c)) (q : Fin n) :
    layerNorm d ε X g b (ix2 p q) = layerNorm d ε A g b (ix2 P q) := by
  rw [layerNorm_apply, layerNorm_apply, centered_rows d X A p P h q, rowVar_rows d X A p P h]

end NormRows

end
-- ==== Proof.LibNormForms.lean ====
/-
  The vector-unit spelling of SiLU and of layer normalisation.

  The vector unit keeps a row's sum as a vector, casts it to a column, divides the column by a splat of the divisor,
  and broadcasts the column across the row; it multiplies by the reciprocal square root of the variance column plus a
  splat of ε, and scales and shifts by one-row values broadcast down the rows. Read at the extended reals each of these
  is the plain function of indices of LibNormRows: a lane sum from zero is the row's sum, a column broadcast across the
  row reads the column at the row, a one-row value broadcast down the rows reads it at the column. The divisor and ε
  stay the words they are printed as; nothing evaluates them.
-/
import proofs.«429735_j71863392796798_1_alg».proof.Proof.LibDenseForms
import proofs.«429735_j71863392796798_1_alg».proof.Proof.LibNormRows

noncomputable section

open scoped BigOperators

namespace NormRows

open Idealize.ShloMosaic Idealize.ShloMosaic.ValueIdx DenseRows

/-! ## Columns -/

/-- The column of row means. -/
def meanCol {m n : Nat} (d : EReal) (Z : Mat m n) : Mat m 1 := fun i => rowMean d Z (i 0)

/-- The entrywise square. -/
def sq {m n : Nat} (Z : Mat m n) : Mat m n := fun i => Z i * Z i

/-- A row's variance is the mean of the squares of its centred entries. -/
theorem rowVar_eq_rowMean_sq {m n : Nat} (d : EReal) (Z : Mat m n) (a : Fin m) :
    rowVar d Z a = rowMean d (sq (centered d Z)) a := rfl

/-- A column broadcast across the row reads, at (p, q), the column at p. -/
theorem bcastCol_apply {m n : Nat} (col : Mat m 1) (hb : (⟨2, ![m, 1]⟩ : Shape).Broadcasts ⟨2, ![m, n]⟩)
    (p : Fin m) (q : Fin n) :
    broadcastTo (⟨2, ![m, n]⟩ : Shape) col hb (ix2 p q) = col (ix2 p (0 : Fin 1)) :=
  broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])

/-- A vector cast to a column reads, at (p, 0), the vector at p. -/
theorem castCol_apply {m : Nat} (v : Col m) (hc : (⟨1, ![m]⟩ : Shape).ShapeCasts ⟨2, ![m, 1]⟩) (p : Fin m) :
    shapeCast (⟨2, ![m, 1]⟩ : Shape) v hc (ix2 p (0 : Fin 1)) = v (ix1 p) :=
  shapeCast_apply v hc _ (ix1 p) (by
    rw [Shape.rowMajor_val_one, Shape.rowMajor_val_two]
    show p.val = p.val * 1 + 0
    omega)

/-! ## The vector unit's spellings -/

/-- x times the vector unit's logistic of x is SiLU. -/
theorem silu_vector_form {m n : Nat} (Z : Mat m n) : mulf Z (logistic Z) = silu Z := rfl

/-- Two additions, the first on the left, are the sum of three. -/
theorem add3_vector_form {m n : Nat} (X S D : Mat m n) : addf (addf X S) D = add3 X S D := rfl

/-- A value times itself is its square. -/
theorem sq_vector_form {m n : Nat} (Z : Mat m n) : mulf Z Z = sq Z := rfl

/-- The lane sum from zero, cast to a column and divided by a splat of the word w: the column of row means. -/
theorem meanCol_vector_form {m n : Nat} (w : BitVec 32) (Z : Mat m n)
    (h : Shape.Reduces (⟨2, ![m, n]⟩ : Shape) [(1 : Fin 2)] (⟨1, ![m]⟩ : Shape))
    (hφ : FKind.Formats .f32) (hacc : (0x00000000#32 : BitVec 32) = FKind.add.neutral .f32 hφ)
    (hc : (⟨1, ![m]⟩ : Shape).ShapeCasts ⟨2, ![m, 1]⟩) :
    divf (shapeCast (⟨2, ![m, 1]⟩ : Shape)
        (multiReduction .add [(1 : Fin 2)] (⟨1, ![m]⟩ : Shape) Z 0x00000000#32 h hφ hacc) hc)
      (broadcast (⟨2, ![m, 1]⟩ : Shape) (Scalar.ofBits (F := Ideal) .f32 w))
      = meanCol (Ideal.ofBits .f32 w) Z := by
  funext i
  obtain ⟨p, u, rfl⟩ : ∃ (p : Fin m) (u : Fin 1), i = ix2 p u := ⟨i 0, i 1, eq_ix2 i⟩
  obtain rfl : u = 0 := Subsingleton.elim _ _
  show Ideal.div (shapeCast (⟨2, ![m, 1]⟩ : Shape)
      (multiReduction .add [(1 : Fin 2)] (⟨1, ![m]⟩ : Shape) Z 0x00000000#32 h hφ hacc) hc (ix2 p (0 : Fin 1)))
      (Ideal.ofBits .f32 w) = Ideal.div (∑ c : Fin n, Z (ix2 p c)) (Ideal.ofBits .f32 w)
  rw [castCol_apply, laneSum_eq_rowSum]

/-- Subtracting the column of row means, broadcast across the row, centres every row. -/
theorem centered_vector_form {m n : Nat} (d : EReal) (Z : Mat m n)
    (hb : (⟨2, ![m, 1]⟩ : Shape).Broadcasts ⟨2, ![m, n]⟩) :
    subf Z (broadcastTo (⟨2, ![m, n]⟩ : Shape) (meanCol d Z) hb) = centered d Z := by
  funext i
  obtain ⟨p, q, rfl⟩ : ∃ (p : Fin m) (q : Fin n), i = ix2 p q := ⟨i 0, i 1, eq_ix2 i⟩
  show Z (ix2 p q) - broadcastTo (⟨2, ![m, n]⟩ : Shape) (meanCol d Z) hb (ix2 p q) = Z (ix2 p q) - rowMean d Z p
  rw [bcastCol_apply]
  rfl

/-- The centred value times the broadcast reciprocal square root of (the mean of its squares plus a splat of the word
    e), scaled and shifted by one-row values broadcast down the rows: layer normalisation. -/
theorem layerNorm_vector_form {m n : Nat} (d : EReal) (e : BitVec 32) (Z : Mat m n) (g b : Mat 1 n)
    (hb : (⟨2, ![m, 1]⟩ : Shape).Broadcasts ⟨2, ![m, n]⟩) (hr : (⟨2, ![1, n]⟩ : Shape).Broadcasts ⟨2, ![m, n]⟩) :
    addf (mulf (mulf (centered d Z)
        (broadcastTo (⟨2, ![m, n]⟩ : Shape)
          (rsqrt (addf (meanCol d (sq (centered d Z))) (broadcast (⟨2, ![m, 1]⟩ : Shape) (Scalar.ofBits (F := Ideal) .f32 e)))) hb))
        (broadcastTo (⟨2, ![m, n]⟩ : Shape) g hr))
      (broadcastTo (⟨2, ![m, n]⟩ : Shape) b hr)
      = layerNorm d (Ideal.ofBits .f32 e) Z g b := by
  funext i
  obtain ⟨p, q, rfl⟩ : ∃ (p : Fin m) (q : Fin n), i = ix2 p q := ⟨i 0, i 1, eq_ix2 i⟩
  show centered d Z (ix2 p q)
        * broadcastTo (⟨2, ![m, n]⟩ : Shape)
            (rsqrt (addf (meanCol d (sq (centered d Z))) (broadcast (⟨2, ![m, 1]⟩ : Shape) (Scalar.ofBits (F := Ideal) .f32 e)))) hb (ix2 p q)
        * broadcastTo (⟨2, ![m, n]⟩ : Shape) g hr (ix2 p q)
      + broadcastTo (⟨2, ![m, n]⟩ : Shape) b hr (ix2 p q)
      = centered d Z (ix2 p q) * Ideal.rsqrt (rowVar d Z p + Ideal.ofBits .f32 e) * g (ix2 (0 : Fin 1) q)
        + b (ix2 (0 : Fin 1) q)
  rw [bcastCol_apply, broadcastTo_1b_ab_apply, broadcastTo_1b_ab_apply]
  rfl

end NormRows

end
-- ==== Proof.EdgeSpec.lean ====
/-
  The two layers of the edge update, as plain functions of indices.

  nodeProj is a node table times a weight matrix plus a bias row. edgeOut takes the edge features X, the two gathered
  node projections S and D, and the weights: it adds X · We, S and D, applies SiLU, multiplies by W2 and adds the bias
  row b2, and layer-normalises every row with scale row g and shift row b. Both are row-local: row p of the result
  depends on row p of X, S and D only, so a tile of rows computed from tiles of X, S and D is that tile of the whole
  result.
-/
import proofs.«429735_j71863392796798_1_alg».proof.Proof.LibNormRows

noncomputable section

open scoped BigOperators

namespace EdgeSpec

open Idealize.ShloMosaic Idealize.ShloMosaic.ValueIdx DenseRows NormRows

/-- A table of rows times a weight matrix, plus a bias row. -/
def nodeProj {m k n : Nat} (X : Mat m k) (W : Mat k n) (r : Mat 1 n) : Mat m n := addRow (mm X W) r

/-- The hidden layer before normalisation: SiLU of (X · We + S + D), times W2, plus the bias row. -/
def hidden {m k n o : Nat} (X : Mat m k) (S D : Mat m n) (We : Mat k n) (W2 : Mat n o) (b2 : Mat 1 o) : Mat m o :=
  addRow (mm (silu (add3 (mm X We) S D)) W2) b2

/-- The edge update: the hidden layer, layer-normalised row by row. -/
def edgeOut {m k n o : Nat} (d ε : EReal) (X : Mat m k) (S D : Mat m n) (We : Mat k n) (W2 : Mat n o)
    (b2 g b : Mat 1 o) : Mat m o :=
  layerNorm d ε (hidden X S D We W2 b2) g b

theorem nodeProj_rows {m M k n : Nat} (X : Mat m k) (A : Mat M k) (W : Mat k n) (r : Mat 1 n) (p : Fin m) (P : Fin M)
    (h : ∀ c, X (ix2 p c) = A (ix2 P c)) (q : Fin n) : nodeProj X W r (ix2 p q) = nodeProj A W r (ix2 P q) :=
  addRow_rows _ _ r p P (fun c => mm_rows X A W p P h c) q

theorem hidden_rows {m M k n o : Nat} (X : Mat m k) (A : Mat M k) (S D : Mat m n) (T E : Mat M n)
    (We : Mat k n) (W2 : Mat n o) (b2 : Mat 1 o) (p : Fin m) (P : Fin M)
    (hX : ∀ c, X (ix2 p c) = A (ix2 P c)) (hS : ∀ c, S (ix2 p c) = T (ix2 P c)) (hD : ∀ c, D (ix2 p c) = E (ix2 P c))
    (q : Fin o) : hidden X S D We W2 b2 (ix2 p q) = hidden A T E We W2 b2 (ix2 P q) :=
  addRow_rows _ _ b2 p P (fun c => mm_rows _ _ W2 p P (fun c => silu_rows _ _ p P
    (fun c => add3_rows _ _ _ _ _ _ p P (fun c => mm_rows X A We p P hX c) hS hD c) c) c) q

theorem edgeOut_rows {m M k n o : Nat} (d ε : EReal) (X : Mat m k) (A : Mat M k) (S D : Mat m n) (T E : Mat M n)
    (We : Mat k n) (W2 : Mat n o) (b2 g b : Mat 1 o) (p : Fin m) (P : Fin M)
    (hX : ∀ c, X (ix2 p c) = A (ix2 P c)) (hS : ∀ c, S (ix2 p c) = T (ix2 P c)) (hD : ∀ c, D (ix2 p c) = E (ix2 P c))
    (q : Fin o) : edgeOut d ε X S D We W2 b2 g b (ix2 p q) = edgeOut d ε A T E We W2 b2 g b (ix2 P q) :=
  layerNorm_rows d ε _ _ g b p P (fun c => hidden_rows X A S D T E We W2 b2 p P hX hS hD c) q

end EdgeSpec

end
-- ==== Proof.EdgePay.lean ====
/-
  What the fused edge kernel stores, as a function of the blocks it loads.

  The body multiplies the tile of edge features by the first weight matrix into a zero accumulator, adds the two tiles
  of gathered node projections, applies x · logistic x, multiplies by the second weight matrix into a zero accumulator
  and adds the bias row; it then takes each row's mean (the lane sum over 128.0), centres the row, takes the mean of the
  squares, and multiplies the centred row by the reciprocal square root of that variance plus the printed ε, by the
  scale row and adds the shift row. That is the edge update of EdgeSpec on the tile, with the divisor and ε the printed
  words read at the extended reals.
-/
import proofs.«429735_j71863392796798_1_alg».proof.Proof.Gen.KernelIdeal.Skeleton
import proofs.«429735_j71863392796798_1_alg».proof.Proof.LibNormForms
import proofs.«429735_j71863392796798_1_alg».proof.Proof.EdgeSpec
import Idealize.ShloMosaic.Lib.Pipeline.Value

noncomputable section

namespace Cert.KernelIdeal.EdgePay

open Idealize.ShloMosaic Idealize.ShloMosaic.ValueIdx DenseRows NormRows EdgeSpec
open Cert.KernelIdeal

/-- The printed divisor 128.0, read at the extended reals. -/
abbrev d128 : EReal := Ideal.ofBits .f32 0x43000000#32
/-- The printed ε, read at the extended reals. -/
abbrev eps : EReal := Ideal.ofBits .f32 0x3727C5AC#32

/-- The printed contraction of a 5000 × 128 tile with a 128 × 128 matrix is the plain one. -/
theorem dot_plain : dot_S5000x128_S128x128_S5000x128_1_0_0_1_n_n = DotDims.plain 5000 128 128 := rfl

theorem k2_pay_eq (v0 v4 v7 : Vec Ideal S5000x128 .f32) (v1 v12 : Vec Ideal S128x128 .f32)
    (v15 v37 v41 : Vec Ideal S1x128 .f32) :
    Gen.k2_pay1 (F := Ideal) (Gen.k2_pay2 (F := Ideal) v0 v1 v4 v7 v12 v15) v37 v41
      = edgeOut d128 eps v0 v4 v7 v1 v12 v15 v37 v41 := by
  unfold Gen.k2_pay1 Gen.k2_pay2
  dsimp only
  simp only [shapeCast_self, dot_plain]
  simp only [matmul_plain_eq_mm]
  simp only [add3_vector_form, silu_vector_form]
  rw [bias_vector_form (mm (silu (add3 (mm v0 v1) v4 v7)) v12) v15]
  rw [show edgeOut d128 eps v0 v4 v7 v1 v12 v15 v37 v41
      = layerNorm d128 eps (addRow (mm (silu (add3 (mm v0 v1) v4 v7)) v12) v15) v37 v41 from rfl]
  generalize addRow (mm (silu (add3 (mm v0 v1) v4 v7)) v12) v15 = H
  rw [meanCol_vector_form 0x43000000#32 H Gen.reduces_S5000x128_S5000 (.inl rfl) rfl Gen.shapeCasts_S5000_S5000x1]
  rw [centered_vector_form]
  rw [sq_vector_form]
  rw [meanCol_vector_form 0x43000000#32 (sq (centered d128 H)) Gen.reduces_S5000x128_S5000 (.inl rfl) rfl
    Gen.shapeCasts_S5000_S5000x1]
  exact layerNorm_vector_form d128 0x3727C5AC#32 H v37 v41 _ _

end Cert.KernelIdeal.EdgePay

end
-- ==== Proof.EdgeValue.lean ====
/-
  The fused edge region, from tiles to the array.

  The region runs 200 tiles of 5000 rows. At tile t the body loads rows 5000 t … 5000 t + 4999 of the edge features and
  of the two gathered node projections, loads the two weight matrices and the three rows whole, and stores one tile of
  5000 rows, which is written back to rows 5000 t … 5000 t + 4999 of the output array. What it stores is the edge update
  (EdgeSpec.edgeOut) of the loaded tiles (EdgePay.k2_pay_eq). The edge update is row-local, so that tile is rows
  5000 t … of the edge update of the whole arrays. The 200 tiles cover the 1000000 rows (row r lies in tile r / 5000), so
  after the last tile the output array holds the edge update of the arrays as the region found them.
-/
import proofs.«429735_j71863392796798_1_alg».proof.Proof.EdgeValueBlocks
import proofs.«429735_j71863392796798_1_alg».proof.Proof.EdgePay
import Idealize.ShloMosaic.Lib.Pipeline.Value

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx DenseRows

variable (V : (c : Dev nD) → (b : Ref sig .tc) → Buf (Elt Ideal) ((c : Thread nD τ).loc b))

/-! ## A tile of the edge update -/

/-- The edge update of tiles whose rows are rows 5000 n … of the arrays, at (p, q), is the edge update of the arrays at (5000 n + p, q). -/
theorem tile_edgeOut (x0 x1 x2 : Mat 5000 128) (A0 A1 A2 : Mat 1000000 128) (We W2 : Mat 128 128) (b2 g b : Mat 1 128)
    (n : Nat) (hn : n < 200)
    (h0 : ∀ (p : Fin 5000) (q : Fin 128), x0 (ix2 p q) = A0 (ix2 ⟨5000 * n + p.val, by omega⟩ q))
    (h1 : ∀ (p : Fin 5000) (q : Fin 128), x1 (ix2 p q) = A1 (ix2 ⟨5000 * n + p.val, by omega⟩ q))
    (h2 : ∀ (p : Fin 5000) (q : Fin 128), x2 (ix2 p q) = A2 (ix2 ⟨5000 * n + p.val, by omega⟩ q))
    (j : S5000x128.Idx) (i : S1000000x128.Idx) (hi0 : (i 0).val = 5000 * n + (j 0).val) (hi1 : (i 1).val = (j 1).val) :
    EdgeSpec.edgeOut EdgePay.d128 EdgePay.eps x0 x1 x2 We W2 b2 g b j
      = EdgeSpec.edgeOut EdgePay.d128 EdgePay.eps A0 A1 A2 We W2 b2 g b i := by
  obtain ⟨p, q, rfl⟩ : ∃ (p : Fin 5000) (q : Fin 128), j = ix2 p q := ⟨j 0, j 1, eq_ix2 j⟩
  have hb : 5000 * n + p.val < 1000000 := by have := p.isLt; omega
  obtain ⟨P, Q, rfl⟩ : ∃ (P : Fin 1000000) (Q : Fin 128), i = ix2 P Q := ⟨i 0, i 1, eq_ix2 i⟩
  obtain rfl : P = ⟨5000 * n + p.val, hb⟩ := Fin.ext hi0
  obtain rfl : Q = q := Fin.ext hi1
  exact EdgeSpec.edgeOut_rows _ _ x0 A0 x1 x2 A1 A2 We W2 b2 g b p _ (h0 p) (h1 p) (h2 p) Q

/-! ## What a tile writes back, and the array after the last tile -/

/-- The edge update of the arrays as the region finds them. -/
abbrev edgeArr (c : Dev nD) : Mat 1000000 128 :=
  EdgeSpec.edgeOut EdgePay.d128 EdgePay.eps (V c (Pipeline.arrRef spec2 0)) (V c (Pipeline.arrRef spec2 1))
    (V c (Pipeline.arrRef spec2 2)) (V c (Pipeline.arrRef spec2 3)) (V c (Pipeline.arrRef spec2 4))
    (V c (Pipeline.arrRef spec2 5)) (V c (Pipeline.arrRef spec2 6)) (V c (Pipeline.arrRef spec2 7))

/-- Tile t writes back rows 5000 t … 5000 t + 4999 of the edge update of the arrays. -/
theorem flushed_eq (c : Dev nD) (t : Fin cfg2.N) :
    (dat2 (F := Ideal) V c).flushed 8 t = ((cfg2.win 8).blk t).view.read (Elt Ideal) (edgeArr V c) := by
  show (cfg2.win 8).cut (grid2.coords t) ((dat2 V c).after 8 t) = _
  rw [after2_8]
  unfold out2_8
  rw [View.canon_unit_zero zero_offsets]
  simp only [View.ld_unit_zero (S := S5000x128) zero_offsets, View.ld_unit_zero (S := S128x128) zero_offsets,
    View.ld_unit_zero (S := S1x128) zero_offsets]
  rw [EdgePay.k2_pay_eq]
  rw [whole3 V c t, whole4 V c t, whole5 V c t, whole6 V c t, whole7 V c t]
  obtain ⟨-, -, -, -, -, -, e0, e1⟩ := tiled_index t
  funext j
  refine tile_edgeOut _ _ _ _ _ _ _ _ _ _ _ t.val (tiles_lt t) (tile0 V c t) (tile1 V c t) (tile2 V c t) j
    (((cfg2.win 8).blk t).view.emb j) ?_ ?_
  · show win2_8.index t (0 : Fin 2) * 5000 + 1 * (j 0).val = 5000 * t.val + (j 0).val; omega
  · show win2_8.index t (1 : Fin 2) * 128 + 1 * (j 1).val = (j 1).val; omega

/-- An index of the output array is in tile t's block iff each coordinate is in the block's range on its axis. -/
theorem mem_blk (t : Fin cfg2.N) (i : S1000000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v14).slice (win2_8.rect t)).set ↔ _
  rw [View.set_slice_whole, Rect.mem_set_unit]
  exact Iff.rfl

/-- Every block index (n, 0) with n below 200 is some tile's. -/
theorem index_onto : ∀ n : Fin 200, ∃ t : Fin cfg2.N, win2_8.index t = ![n.val, 0] :=
  (by decide +kernel : ∀ n : Fin 200, ∃ t : Fin grid2.N, win2_8.index t = ![n.val, 0])

/-- Row r of the output array is in the block of the tile at block index r / 5000. -/
theorem covered (i : S1000000x128.Idx) :
    ∃ t : Fin cfg2.N, (cfg2.win 8).flush t = true ∧ i ∈ ((cfg2.win 8).blk t).view.set := by
  have hi0 : (i 0).val < 1000000 := (i 0).isLt
  have hi1 : (i 1).val < 128 := (i 1).isLt
  obtain ⟨t, ht⟩ := index_onto ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

/-- THE OUTPUT ARRAY after the last tile is the edge update of the arrays as the region finds them. -/
theorem arr (c : Dev nD) : ((dat2 (F := Ideal) V c).arrAt 8 cfg2.N : Mat 1000000 128)
      = EdgeSpec.edgeOut EdgePay.d128 EdgePay.eps (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (V c (Pipeline.arrRef spec2 6)) (V c (Pipeline.arrRef spec2 7)) :=
  (dat2 V c).arrAt_eq_of_cover 8 (edgeArr V c) (fun t _ => flushed_eq V c t) covered

end Cert.KernelIdeal.EdgeValue
end
-- ==== Proof.NodeFold.lean ====
import proofs.«429735_j71863392796798_1_alg».proof.Proof.Gen.KernelIdeal.Frame
import Idealize.ShloMosaic.Lib.StableHlo.Run
set_option maxRecDepth 16384

noncomputable section

namespace Cert.KernelIdeal.NodeFold

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! # The buffer contents between the regions, read back to the launch memory

The contents at each boundary of @main are a fold: a stretch of host operations applied to the boundary before it, or
a region's arrays replaced by what its write-backs leave. A buffer that a stretch does not write, and that is not an
array of the region, passes through unchanged; a buffer a stretch writes holds the operation's value of its operands. -/

/-- A stretch of host operations leaves a buffer it does not write as it was. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first projection's operands, as it is entered -/

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by stretch_keeps hostOps0
    _ = m ((c : Thread nD τ).loc main_arg1) := rfl

/-- The first projection's weight operand is the transposed weight argument. -/
theorem W1_v1 (c : Dev nD) : W1 m ρ c (Proc.devRef .tc main_v1)
    = transpose S128x128 [1, 0] (m ((c : Thread nD τ).loc main_arg6)) transposes_S128x128_S128x128_1_0 := by
  show StableHlo.after hostOps0 (W0 m ρ c) (Proc.devRef .tc main_v1) = _
  after_results

/-- The first projection's bias operand is the zero vector as one row. -/
theorem W1_v2 (c : Dev nD) : W1 m ρ c (Proc.devRef .tc main_v2)
    = shapeCast S1x128 (broadcastInDim S128 ![] bcast_S_S128 (constant (F := F) S_ .f32 0x00000000#32)) shapeCasts_S128_S1x128 := by
  show StableHlo.after hostOps0 (W0 m ρ c) (Proc.devRef .tc main_v2) = _
  after_results
  rfl

/-! ## The second projection's operands, as it is entered -/

theorem W2_keeps (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps hostOps1
    _ = m ((c : Thread nD τ).loc main_arg2) := W2_keeps m ρ c main_arg2 (by decide) (by stretch_keeps hostOps0)

/-- The second projection's weight operand is the transposed weight argument. -/
theorem W3_v4 (c : Dev nD) : W3 m ρ c (Proc.devRef .tc main_v4)
    = transpose S128x128 [1, 0] (m ((c : Thread nD τ).loc main_arg7)) transposes_S128x128_S128x128_1_0 := by
  have h : W2 m ρ c (Proc.devRef .tc main_arg7) = m ((c : Thread nD τ).loc main_arg7) :=
    W2_keeps m ρ c main_arg7 (by decide) (by stretch_keeps hostOps0)
  rw [← h]
  show StableHlo.after hostOps1 (W2 m ρ c) (Proc.devRef .tc main_v4) = _
  after_results

/-- The second projection's bias operand is the bias argument as one row. -/
theorem W3_v5 (c : Dev nD) : W3 m ρ c (Proc.devRef .tc main_v5)
    = shapeCast S1x128 (m ((c : Thread nD τ).loc main_arg8)) shapeCasts_S128_S1x128 := by
  have h : W2 m ρ c (Proc.devRef .tc main_arg8) = m ((c : Thread nD τ).loc main_arg8) :=
    W2_keeps m ρ c main_arg8 (by decide) (by stretch_keeps hostOps0)
  rw [← h]
  show StableHlo.after hostOps1 (W2 m ρ c) (Proc.devRef .tc main_v5) = _
  after_results
  rfl

/-! ## The boundary before the gathers -/

/-- The first projection's result array is still what its region left. -/
theorem W4_v3 (c : Dev nD) : W4 m ρ c (Proc.devRef .tc main_v3) = (dat0 (V1 m ρ) c).arrAt 3 cfg0.N :=
  calc W4 m ρ c (Proc.devRef .tc main_v3)
    _ = W3 m ρ c (Proc.devRef .tc main_v3) := W4_of_ne m ρ c main_v3 (by decide)
    _ = W2 m ρ c (Proc.devRef .tc main_v3) := by stretch_keeps hostOps1
    _ = (dat0 (V1 m ρ) c).arrAt 3 cfg0.N := W2_arr m ρ c 3

/-- The second projection's result array is what its region left. -/
theorem W4_v6 (c : Dev nD) : W4 m ρ c (Proc.devRef .tc main_v6) = (dat1 (V3 m ρ) c).arrAt 3 cfg1.N :=
  W4_arr m ρ c 3

/-- The argument array main_arg0 reaches the boundary before the gathers as launched. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by stretch_keeps hostOps1
    _ = W1 m ρ c (Proc.devRef .tc main_arg0) := W2_of_ne m ρ c main_arg0 (by decide)
    _ = W0 m ρ c (Proc.devRef .tc main_arg0) := by stretch_keeps hostOps0
    _ = m ((c : Thread nD τ).loc main_arg0) := rfl

/-- The argument array main_arg3 reaches the boundary before the gathers as launched. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps1
    _ = W1 m ρ c (Proc.devRef .tc main_arg3) := W2_of_ne m ρ c main_arg3 (by decide)
    _ = W0 m ρ c (Proc.devRef .tc main_arg3) := by stretch_keeps hostOps0
    _ = m ((c : Thread nD τ).loc main_arg3) := rfl

/-- The argument array main_arg4 reaches the boundary before the gathers as launched. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps hostOps1
    _ = W1 m ρ c (Proc.devRef .tc main_arg4) := W2_of_ne m ρ c main_arg4 (by decide)
    _ = W0 m ρ c (Proc.devRef .tc main_arg4) := by stretch_keeps hostOps0
    _ = m ((c : Thread nD τ).loc main_arg4) := rfl

/-- The argument array main_arg5 reaches the boundary before the gathers as launched. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by stretch_keeps hostOps1
    _ = W1 m ρ c (Proc.devRef .tc main_arg5) := W2_of_ne m ρ c main_arg5 (by decide)
    _ = W0 m ρ c (Proc.devRef .tc main_arg5) := by stretch_keeps hostOps0
    _ = m ((c : Thread nD τ).loc main_arg5) := rfl

/-- The argument array main_arg9 reaches the boundary before the gathers as launched. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by stretch_keeps hostOps1
    _ = W1 m ρ c (Proc.devRef .tc main_arg9) := W2_of_ne m ρ c main_arg9 (by decide)
    _ = W0 m ρ c (Proc.devRef .tc main_arg9) := by stretch_keeps hostOps0
    _ = m ((c : Thread nD τ).loc main_arg9) := rfl

/-- The argument array main_arg10 reaches the boundary before the gathers as launched. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_keeps hostOps1
    _ = W1 m ρ c (Proc.devRef .tc main_arg10) := W2_of_ne m ρ c main_arg10 (by decide)
    _ = W0 m ρ c (Proc.devRef .tc main_arg10) := by stretch_keeps hostOps0
    _ = m ((c : Thread nD τ).loc main_arg10) := rfl

/-- The argument array main_arg11 reaches the boundary before the gathers as launched. -/
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by stretch_keeps hostOps1
    _ = W1 m ρ c (Proc.devRef .tc main_arg11) := W2_of_ne m ρ c main_arg11 (by decide)
    _ = W0 m ρ c (Proc.devRef .tc main_arg11) := by stretch_keeps hostOps0
    _ = m ((c : Thread nD τ).loc main_arg11) := rfl

/-- The argument array main_arg12 reaches the boundary before the gathers as launched. -/
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by stretch_keeps hostOps1
    _ = W1 m ρ c (Proc.devRef .tc main_arg12) := W2_of_ne m ρ c main_arg12 (by decide)
    _ = W0 m ρ c (Proc.devRef .tc main_arg12) := by stretch_keeps hostOps0
    _ = m ((c : Thread nD τ).loc main_arg12) := rfl

end Cert.KernelIdeal.NodeFold

end
-- ==== Proof.EdgeOperands.lean ====
import proofs.«429735_j71863392796798_1_alg».proof.Proof.Gen.KernelIdeal.Frame
import proofs.«429735_j71863392796798_1_alg».proof.Proof.NodeFold
import Idealize.ShloMosaic.Lib.StableHlo.Run
set_option maxRecDepth 16384

noncomputable section

namespace Cert.KernelIdeal.EdgeOperands

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! # The fused edge region's small operands, as it is entered

Neither gather writes an argument array, so each argument reaches the last stretch of host operations as launched;
that stretch transposes the two weight arguments and casts the bias, scale and shift vectors to one row each. -/

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := by stretch_keeps hostOps2_1
    _ = W4 m ρ c (Proc.devRef .tc main_arg0) := by stretch_keeps hostOps2
    _ = m ((c : Thread nD τ).loc main_arg0) := NodeFold.W4_arg0 m ρ c

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by stretch_keeps hostOps2_1
    _ = W4 m ρ c (Proc.devRef .tc main_arg5) := by stretch_keeps hostOps2
    _ = m ((c : Thread nD τ).loc main_arg5) := NodeFold.W4_arg5 m ρ c

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := by stretch_keeps hostOps2_1
    _ = W4 m ρ c (Proc.devRef .tc main_arg9) := by stretch_keeps hostOps2
    _ = m ((c : Thread nD τ).loc main_arg9) := NodeFold.W4_arg9 m ρ c

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by stretch_keeps hostOps2_1
    _ = W4 m ρ c (Proc.devRef .tc main_arg10) := by stretch_keeps hostOps2
    _ = m ((c : Thread nD τ).loc main_arg10) := NodeFold.W4_arg10 m ρ c

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by stretch_keeps hostOps2_1
    _ = W4 m ρ c (Proc.devRef .tc main_arg11) := by stretch_keeps hostOps2
    _ = m ((c : Thread nD τ).loc main_arg11) := NodeFold.W4_arg11 m ρ c

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := by stretch_keeps hostOps2_1
    _ = W4 m ρ c (Proc.devRef .tc main_arg12) := by stretch_keeps hostOps2
    _ = m ((c : Thread nD τ).loc main_arg12) := NodeFold.W4_arg12 m ρ c

/-- The edge features enter the region as launched. -/
theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by stretch_keeps hostOps2_2
    _ = m ((c : Thread nD τ).loc main_arg0) := W6_arg0 m ρ c

/-- The last stretch's value at main_v9, from any contents. -/
theorem last_v9 (V : Valuation τ sig (Elt F)) : StableHlo.after hostOps2_2 V (Proc.devRef .tc main_v9)
    = transpose S128x128 [1, 0] (V (Proc.devRef .tc main_arg5)) transposes_S128x128_S128x128_1_0 := by
  after_results

/-- The first weight operand is the transposed edge-weight argument. -/
theorem W7_v9 (c : Dev nD) : W7 m ρ c (Proc.devRef .tc main_v9)
    = transpose S128x128 [1, 0] (m ((c : Thread nD τ).loc main_arg5)) transposes_S128x128_S128x128_1_0 :=
  (last_v9 (W6 m ρ c)).trans (congrArg (fun x => transpose S128x128 [1, 0] x transposes_S128x128_S128x128_1_0) (W6_arg5 m ρ c))

/-- The last stretch's value at main_v10, from any contents. -/
theorem last_v10 (V : Valuation τ sig (Elt F)) : StableHlo.after hostOps2_2 V (Proc.devRef .tc main_v10)
    = transpose S128x128 [1, 0] (V (Proc.devRef .tc main_arg9)) transposes_S128x128_S128x128_1_0 := by
  after_results

/-- The second weight operand is the transposed second-layer weight argument. -/
theorem W7_v10 (c : Dev nD) : W7 m ρ c (Proc.devRef .tc main_v10)
    = transpose S128x128 [1, 0] (m ((c : Thread nD τ).loc main_arg9)) transposes_S128x128_S128x128_1_0 :=
  (last_v10 (W6 m ρ c)).trans (congrArg (fun x => transpose S128x128 [1, 0] x transposes_S128x128_S128x128_1_0) (W6_arg9 m ρ c))

/-- The last stretch's value at main_v11, from any contents. -/
theorem last_v11 (V : Valuation τ sig (Elt F)) : StableHlo.after hostOps2_2 V (Proc.devRef .tc main_v11)
    = shapeCast S1x128 (V (Proc.devRef .tc main_arg10)) shapeCasts_S128_S1x128 := by
  after_results
  rfl

/-- The second-layer bias as one row. -/
theorem W7_v11 (c : Dev nD) : W7 m ρ c (Proc.devRef .tc main_v11)
    = shapeCast S1x128 (m ((c : Thread nD τ).loc main_arg10)) shapeCasts_S128_S1x128 :=
  (last_v11 (W6 m ρ c)).trans (congrArg (fun x => shapeCast S1x128 x shapeCasts_S128_S1x128) (W6_arg10 m ρ c))

/-- The last stretch's value at main_v12, from any contents. -/
theorem last_v12 (V : Valuation τ sig (Elt F)) : StableHlo.after hostOps2_2 V (Proc.devRef .tc main_v12)
    = shapeCast S1x128 (V (Proc.devRef .tc main_arg11)) shapeCasts_S128_S1x128 := by
  after_results
  rfl

/-- The normalisation's scale as one row. -/
theorem W7_v12 (c : Dev nD) : W7 m ρ c (Proc.devRef .tc main_v12)
    = shapeCast S1x128 (m ((c : Thread nD τ).loc main_arg11)) shapeCasts_S128_S1x128 :=
  (last_v12 (W6 m ρ c)).trans (congrArg (fun x => shapeCast S1x128 x shapeCasts_S128_S1x128) (W6_arg11 m ρ c))

/-- The last stretch's value at main_v13, from any contents. -/
theorem last_v13 (V : Valuation τ sig (Elt F)) : StableHlo.after hostOps2_2 V (Proc.devRef .tc main_v13)
    = shapeCast S1x128 (V (Proc.devRef .tc main_arg12)) shapeCasts_S128_S1x128 := by
  after_results
  rfl

/-- The normalisation's shift as one row. -/
theorem W7_v13 (c : Dev nD) : W7 m ρ c (Proc.devRef .tc main_v13)
    = shapeCast S1x128 (m ((c : Thread nD τ).loc main_arg12)) shapeCasts_S128_S1x128 :=
  (last_v13 (W6 m ρ c)).trans (congrArg (fun x => shapeCast S1x128 x shapeCasts_S128_S1x128) (W6_arg12 m ρ c))

end Cert.KernelIdeal.EdgeOperands

end
-- ==== Proof.NodePay.lean ====
/-
  The body of each node projection, on one tile of rows, is the specification's node projection of that tile.

  The body multiplies the tile of rows by the weight matrix into a zero accumulator, broadcasts the one-row bias down
  the rows, and adds. Read at the extended reals, the accumulated product is the matrix product (0 + x = x) and the
  broadcast bias is the bias row added to every row; the two casts of a value to its own shape change nothing.
-/
import proofs.«429735_j71863392796798_1_alg».proof.Proof.Gen.KernelIdeal.Skeleton
import proofs.«429735_j71863392796798_1_alg».proof.Proof.LibDenseForms
import proofs.«429735_j71863392796798_1_alg».proof.Proof.EdgeSpec
import Idealize.ShloMosaic.Lib.Pipeline.Value

noncomputable section

namespace Cert.KernelIdeal.NodePay

open Idealize.ShloMosaic Idealize.SL.Sem

/-- The printed contraction of a 2000×128 tile with a 128×128 matrix is the plain one: left axis 1 against right
    axis 0, no batch axes. -/
theorem dot_tile_eq_plain :
    dot_S2000x128_S128x128_S2000x128_1_0_0_1_n_n = DotDims.plain 2000 128 128 := rfl

/-- The first projection's body on a tile: the tile times the weights, plus the bias row. -/
theorem k0_pay1_eq (v0 : Vec Ideal S2000x128 .f32) (v1 : Vec Ideal S128x128 .f32) (v4 : Vec Ideal S1x128 .f32) :
    Gen.k0_pay1 (F := Ideal) v0 v1 v4 = EdgeSpec.nodeProj v0 v1 v4 := by
  unfold Gen.k0_pay1
  dsimp only
  rw [shapeCast_self, shapeCast_self, dot_tile_eq_plain]
  exact (congrArg (fun Z => addf Z _) (DenseRows.matmul_plain_eq_mm none v0 v1)).trans
    (DenseRows.bias_vector_form (DenseRows.mm v0 v1) v4 _)

/-- The second projection's body on a tile: the same function of its own operands. -/
theorem k1_pay1_eq (v0 : Vec Ideal S2000x128 .f32) (v1 : Vec Ideal S128x128 .f32) (v4 : Vec Ideal S1x128 .f32) :
    Gen.k1_pay1 (F := Ideal) v0 v1 v4 = EdgeSpec.nodeProj v0 v1 v4 := by
  unfold Gen.k1_pay1
  dsimp only
  rw [shapeCast_self, shapeCast_self, dot_tile_eq_plain]
  exact (congrArg (fun Z => addf Z _) (DenseRows.matmul_plain_eq_mm none v0 v1)).trans
    (DenseRows.bias_vector_form (DenseRows.mm v0 v1) v4 _)

end Cert.KernelIdeal.NodePay

end
-- ==== Proof.NodeValue0.lean ====
/-
  The first node projection, from tiles to the whole table.

  The region runs over 50 tiles of 2000 rows. At tile t the body reads rows 2000 t … 2000 t + 1999 of the node table,
  the whole weight matrix and the whole bias row, and what it writes back is the specification's node projection of
  that tile of rows. The node projection is row-local, so the tile written back at t is rows 2000 t … 2000 t + 1999
  of the node projection of the whole table; row r of the table lies in tile r / 2000, so the tiles cover the output
  array, which therefore ends holding the node projection of the whole table.
-/
import proofs.«429735_j71863392796798_1_alg».proof.Proof.Gen.KernelIdeal.Frame
import proofs.«429735_j71863392796798_1_alg».proof.Proof.NodePay
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.NodeValue0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The node projection of the whole table, of the arrays as the region finds them. -/
abbrev whole (c : Dev nD) : DenseRows.Mat 100000 128 :=
  EdgeSpec.nodeProj (V c (Pipeline.arrRef spec0 0) : DenseRows.Mat 100000 128)
    (V c (Pipeline.arrRef spec0 1) : DenseRows.Mat 128 128) (V c (Pipeline.arrRef spec0 2) : DenseRows.Mat 1 128)

/-- The printed index maps over the grid: the table's tile and the output's tile at point t are tile t of the one
    column of tiles; the weight matrix and the bias row are whole at every point. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a tile's body: if the tile's rows are rows 2000 t + p of X, and the other two operands are W and r
    whole, the body's entry (p, q) is entry (2000 t + p, q) of the node projection of X. -/
theorem tile_entry (X : DenseRows.Mat 100000 128) (W : DenseRows.Mat 128 128) (r : DenseRows.Mat 1 128) (t : Nat)
    (x0 : Vec Ideal S2000x128 .f32) (x1 : Vec Ideal S128x128 .f32) (x2 : Vec Ideal S1x128 .f32)
    (h0 : ∀ (p : Fin 2000) (P : Fin 100000), P.val = 2000 * t + p.val → ∀ q : Fin 128, x0 (ix2 p q) = X (ix2 P q))
    (h1 : x1 = W) (h2 : x2 = r) (j : S2000x128.Idx) (i : S100000x128.Idx)
    (hi0 : (i 0).val = 2000 * t + (j 0).val) (hi1 : (i 1).val = (j 1).val) :
    Gen.k0_pay1 (F := Ideal) x0 x1 x2 j = EdgeSpec.nodeProj X W r i := by
  rw [NodePay.k0_pay1_eq, h1, h2]
  obtain ⟨p, q, rfl⟩ : ∃ (p : Fin 2000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  exact EdgeSpec.nodeProj_rows x0 X W r p P (h0 p P hi0) Q

/-- WHAT POINT t WRITES BACK is tile t of the node projection of the whole table. -/
theorem tile_written (c : Dev nD) (t : Fin cfg0.N) :
    (dat0 (F := Ideal) V c).flushed 3 t = ((cfg0.win 3).blk t).view.read (Elt Ideal) (whole V c) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6, e7⟩ := index_maps t
  funext j
  show Gen.k0_pay1 (F := Ideal) (iblk0 V c 0 t) (iblk0 V c 1 t) (iblk0 V c 2 t) (fun a => ⟨(j a).val, (j a).isLt⟩)
    = whole V c (((cfg0.win 3).blk t).view.emb j)
  refine tile_entry (V c (Pipeline.arrRef spec0 0)) (V c (Pipeline.arrRef spec0 1)) (V c (Pipeline.arrRef spec0 2)) t.val
    _ _ _ ?_ ?_ ?_ _ _ ?_ ?_
  · intro p P hP q
    show V c (Pipeline.arrRef spec0 0) (((cfg0.win 0).blk t).view.emb (ix2 p q)) = V c (Pipeline.arrRef spec0 0) (ix2 P q)
    refine congrArg _ (funext fun a => Fin.ext ?_)
    match a with
    | ⟨0, _⟩ => show win0_0.index t (0 : Fin 2) * 2000 + 1 * p.val = P.val; omega
    | ⟨1, _⟩ => show win0_0.index t (1 : Fin 2) * 128 + 1 * q.val = q.val; omega
  · funext y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 2000 + 1 * (j 0).val = 2000 * t.val + (j 0).val; omega
  · show win0_3.index t (1 : Fin 2) * 128 + 1 * (j 1).val = (j 1).val; omega

/-- An index of the output array is in point t's tile iff each coordinate is in the tile's range on its axis. -/
theorem mem_tile (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v3).slice (win0_3.rect t)).set ↔ _
  rw [View.set_slice_whole, Rect.mem_set_unit]
  exact Iff.rfl

/-- THE TILES COVER THE OUTPUT: row r is in the tile of point r / 2000, which is written back. -/
theorem tiles_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, e6, e7⟩ := index_maps ⟨(i 0).val / 2000, ht⟩
  refine ⟨⟨(i 0).val / 2000, ht⟩, flush0_3 _, ?_⟩
  rw [mem_tile]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e7]
    omega

/-- THE OUTPUT ARRAY after the region: the node projection of the node table, the weight matrix and the bias row as
    the region finds them. -/
theorem arr (c : Dev nD) :
    ((dat0 (F := Ideal) V c).arrAt 3 cfg0.N : DenseRows.Mat 100000 128)
      = EdgeSpec.nodeProj (V c (Pipeline.arrRef spec0 0)) (V c (Pipeline.arrRef spec0 1)) (V c (Pipeline.arrRef spec0 2)) :=
  (dat0 (F := Ideal) V c).arrAt_eq_of_cover 3 (whole V c) (fun t _ => tile_written V c t) tiles_cover

end Cert.KernelIdeal.NodeValue0

end
-- ==== Proof.NodeValue1.lean ====
/-
  The second node projection, from tiles to the whole table.

  The region runs over 50 tiles of 2000 rows. At tile t the body reads rows 2000 t … 2000 t + 1999 of the node table,
  the whole weight matrix and the whole bias row, and what it writes back is the specification's node projection of
  that tile of rows. The node projection is row-local, so the tile written back at t is rows 2000 t … 2000 t + 1999
  of the node projection of the whole table; row r of the table lies in tile r / 2000, so the tiles cover the output
  array, which therefore ends holding the node projection of the whole table.
-/
import proofs.«429735_j71863392796798_1_alg».proof.Proof.Gen.KernelIdeal.Frame
import proofs.«429735_j71863392796798_1_alg».proof.Proof.NodePay
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.NodeValue1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The node projection of the whole table, of the arrays as the region finds them. -/
abbrev whole (c : Dev nD) : DenseRows.Mat 100000 128 :=
  EdgeSpec.nodeProj (V c (Pipeline.arrRef spec1 0) : DenseRows.Mat 100000 128)
    (V c (Pipeline.arrRef spec1 1) : DenseRows.Mat 128 128) (V c (Pipeline.arrRef spec1 2) : DenseRows.Mat 1 128)

/-- The printed index maps over the grid: the table's tile and the output's tile at point t are tile t of the one
    column of tiles; the weight matrix and the bias row are whole at every point. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a tile's body: if the tile's rows are rows 2000 t + p of X, and the other two operands are W and r
    whole, the body's entry (p, q) is entry (2000 t + p, q) of the node projection of X. -/
theorem tile_entry (X : DenseRows.Mat 100000 128) (W : DenseRows.Mat 128 128) (r : DenseRows.Mat 1 128) (t : Nat)
    (x0 : Vec Ideal S2000x128 .f32) (x1 : Vec Ideal S128x128 .f32) (x2 : Vec Ideal S1x128 .f32)
    (h0 : ∀ (p : Fin 2000) (P : Fin 100000), P.val = 2000 * t + p.val → ∀ q : Fin 128, x0 (ix2 p q) = X (ix2 P q))
    (h1 : x1 = W) (h2 : x2 = r) (j : S2000x128.Idx) (i : S100000x128.Idx)
    (hi0 : (i 0).val = 2000 * t + (j 0).val) (hi1 : (i 1).val = (j 1).val) :
    Gen.k1_pay1 (F := Ideal) x0 x1 x2 j = EdgeSpec.nodeProj X W r i := by
  rw [NodePay.k1_pay1_eq, h1, h2]
  obtain ⟨p, q, rfl⟩ : ∃ (p : Fin 2000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  exact EdgeSpec.nodeProj_rows x0 X W r p P (h0 p P hi0) Q

/-- WHAT POINT t WRITES BACK is tile t of the node projection of the whole table. -/
theorem tile_written (c : Dev nD) (t : Fin cfg1.N) :
    (dat1 (F := Ideal) V c).flushed 3 t = ((cfg1.win 3).blk t).view.read (Elt Ideal) (whole V c) := by
  show (cfg1.win 3).cut (grid1.coords t) ((dat1 (F := Ideal) V c).after 3 t) = _
  rw [after1_3]
  unfold out1_3
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6, e7⟩ := index_maps t
  funext j
  show Gen.k1_pay1 (F := Ideal) (iblk1 V c 0 t) (iblk1 V c 1 t) (iblk1 V c 2 t) (fun a => ⟨(j a).val, (j a).isLt⟩)
    = whole V c (((cfg1.win 3).blk t).view.emb j)
  refine tile_entry (V c (Pipeline.arrRef spec1 0)) (V c (Pipeline.arrRef spec1 1)) (V c (Pipeline.arrRef spec1 2)) t.val
    _ _ _ ?_ ?_ ?_ _ _ ?_ ?_
  · intro p P hP q
    show V c (Pipeline.arrRef spec1 0) (((cfg1.win 0).blk t).view.emb (ix2 p q)) = V c (Pipeline.arrRef spec1 0) (ix2 P q)
    refine congrArg _ (funext fun a => Fin.ext ?_)
    match a with
    | ⟨0, _⟩ => show win1_0.index t (0 : Fin 2) * 2000 + 1 * p.val = P.val; omega
    | ⟨1, _⟩ => show win1_0.index t (1 : Fin 2) * 128 + 1 * q.val = q.val; omega
  · funext y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c (Pipeline.arrRef spec1 2) (((cfg1.win 2).blk t).view.emb y) = V c (Pipeline.arrRef spec1 2) y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show win1_3.index t (0 : Fin 2) * 2000 + 1 * (j 0).val = 2000 * t.val + (j 0).val; omega
  · show win1_3.index t (1 : Fin 2) * 128 + 1 * (j 1).val = (j 1).val; omega

/-- An index of the output array is in point t's tile iff each coordinate is in the tile's range on its axis. -/
theorem mem_tile (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v6).slice (win1_3.rect t)).set ↔ _
  rw [View.set_slice_whole, Rect.mem_set_unit]
  exact Iff.rfl

/-- THE TILES COVER THE OUTPUT: row r is in the tile of point r / 2000, which is written back. -/
theorem tiles_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, e6, e7⟩ := index_maps ⟨(i 0).val / 2000, ht⟩
  refine ⟨⟨(i 0).val / 2000, ht⟩, flush1_3 _, ?_⟩
  rw [mem_tile]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e7]
    omega

/-- THE OUTPUT ARRAY after the region: the node projection of the node table, the weight matrix and the bias row as
    the region finds them. -/
theorem arr (c : Dev nD) :
    ((dat1 (F := Ideal) V c).arrAt 3 cfg1.N : DenseRows.Mat 100000 128)
      = EdgeSpec.nodeProj (V c (Pipeline.arrRef spec1 0)) (V c (Pipeline.arrRef spec1 1)) (V c (Pipeline.arrRef spec1 2)) :=
  (dat1 (F := Ideal) V c).arrAt_eq_of_cover 3 (whole V c) (fun t _ => tile_written V c t) tiles_cover

end Cert.KernelIdeal.NodeValue1

end
-- ==== Proof.NodeAtGather.lean ====
import proofs.«429735_j71863392796798_1_alg».proof.Proof.Gen.KernelIdeal.Frame
import proofs.«429735_j71863392796798_1_alg».proof.Proof.NodeFold
import proofs.«429735_j71863392796798_1_alg».proof.Proof.NodeValue0
import proofs.«429735_j71863392796798_1_alg».proof.Proof.NodeValue1

set_option maxRecDepth 16384

noncomputable section

namespace Cert.KernelIdeal.NodeAtGather

open Cert.KernelIdeal Cert.KernelIdeal.Gen
open Idealize.ShloMosaic Idealize.ShloMosaic.TcCoe
open Idealize.SL Idealize.SL.Sem
open DenseRows EdgeSpec

variable (m : (ℓ : Loc nD τ sig) → Buf (Elt Ideal) ℓ) (ρ : Dev nD → PrngReg)

/-! # The two node projections, as the gathers find them

Each projection's result array is what its region left: the table of node features times the transposed weight
argument, plus the bias row (the zero vector as one row for the first projection, the bias argument as one row for
the second). -/

/-- The printed transpose of a 128 × 128 weight argument. -/
abbrev tr (x : FVec Ideal S128x128 .f32) : FVec Ideal S128x128 .f32 :=
  transpose S128x128 [1, 0] x transposes_S128x128_S128x128_1_0

/-- A length-128 vector as one row. -/
abbrev row (x : FVec Ideal S128 .f32) : FVec Ideal S1x128 .f32 := shapeCast S1x128 x shapeCasts_S128_S1x128

/-- The zero vector as one row. -/
abbrev zeroRow : FVec Ideal S1x128 .f32 :=
  row (broadcastInDim S128 ![] bcast_S_S128 (constant (F := Ideal) S_ .f32 0x00000000#32))

/-- The first projection, at the boundary before the gathers. -/
theorem src_proj (c : Dev nD) :
    W4 m ρ c (Proc.devRef .tc main_v3)
      = nodeProj (m ((c : Thread nD τ).loc main_arg1)) (tr (m ((c : Thread nD τ).loc main_arg6))) zeroRow := by
  rw [NodeFold.W4_v3 m ρ c, NodeValue0.arr (V1 m ρ) c]
  show nodeProj (W1 m ρ c (Proc.devRef .tc main_arg1)) (W1 m ρ c (Proc.devRef .tc main_v1))
      (W1 m ρ c (Proc.devRef .tc main_v2)) = _
  rw [NodeFold.W1_arg1 m ρ c, NodeFold.W1_v1 m ρ c, NodeFold.W1_v2 m ρ c]

/-- The second projection, at the boundary before the gathers. -/
theorem dst_proj (c : Dev nD) :
    W4 m ρ c (Proc.devRef .tc main_v6)
      = nodeProj (m ((c : Thread nD τ).loc main_arg2)) (tr (m ((c : Thread nD τ).loc main_arg7)))
          (row (m ((c : Thread nD τ).loc main_arg8))) := by
  rw [NodeFold.W4_v6 m ρ c, NodeValue1.arr (V3 m ρ) c]
  show nodeProj (W3 m ρ c (Proc.devRef .tc main_arg2)) (W3 m ρ c (Proc.devRef .tc main_v4))
      (W3 m ρ c (Proc.devRef .tc main_v5)) = _
  rw [NodeFold.W3_arg2 m ρ c, NodeFold.W3_v4 m ρ c, NodeFold.W3_v5 m ρ c]

end Cert.KernelIdeal.NodeAtGather

end
-- ==== Proof.TakeForm.lean ====
/-
  The kernel's row gather in fill mode, read as a plain gather.

  The outlined function takes a table of 100000 rows and a vector of 1000000 signed 32-bit indices.  It wraps a
  negative index by adding 100000, tests the wrapped index against [0, 99999], gathers the rows, and puts a
  not-a-number fill wherever the test fails.  When every index lies in [−100000, 100000) the wrapped index lies in
  [0, 99999]: adding 100000 to a word in [−100000, 0) does not overflow.  Both compares are then 1 at every entry,
  the reduction by `and` over the one-element axis is 1, the mask is 1 everywhere, and the select returns the
  gathered rows.  The gather is never read at an index here.
-/
import Idealize.ShloMosaic.PureOps.Reduce
import Idealize.ShloMosaic.Lib.Affine
import proofs.«429735_j71863392796798_1_alg».proof.KernelIdeal

noncomputable section

namespace Cert.KernelIdeal.Take

open Idealize.ShloMosaic Cert.KernelIdeal

/-! ## One word -/

/-- The wrap of one index word: 100000 added when it is negative. -/
def wrapWord (a : BitVec 32) : BitVec 32 := Scalar.select (IntOp.cmpi .slt a 0#32) (IntOp.addi a 100000#32) a

/-- A word in [−100000, 100000) wraps into [0, 99999] (signed reading). -/
theorem wrapWord_range {a : BitVec 32} (h : (-100000 : Int) ≤ a.toInt ∧ a.toInt < 100000) :
    (0 : Int) ≤ (wrapWord a).toInt ∧ (wrapWord a).toInt ≤ 99999 := by
  unfold wrapWord Scalar.select
  by_cases hneg : a.toInt < 0
  · have hc : IntOp.cmpi .slt a 0#32 = 1 := IntOp.cmpi_slt.2 (by simpa using hneg)
    rw [if_pos hc]
    have ha := BitVec.toInt_eq_toNat_cond a
    have hs : (IntOp.addi a 100000#32).toNat = (a.toNat + 100000) % 2 ^ 32 := by
      show (a + 100000#32).toNat = _
      rw [BitVec.toNat_add]; rfl
    have hw := BitVec.toInt_eq_toNat_cond (IntOp.addi a 100000#32)
    have hlt := a.isLt
    split at ha <;> split at hw <;> omega
  · have hc : ¬ IntOp.cmpi .slt a 0#32 = 1 := fun e => hneg (by simpa using IntOp.cmpi_slt.1 e)
    rw [if_neg hc]
    omega

/-- The two range tests of a wrapped word in range are both 1. -/
theorem wrapWord_tests {a : BitVec 32} (h : (-100000 : Int) ≤ a.toInt ∧ a.toInt < 100000) :
    IntOp.andi (IntOp.cmpi .sge (wrapWord a) 0#32) (IntOp.cmpi .sle (wrapWord a) 99999#32) = 1#1 := by
  obtain ⟨h0, h1⟩ := wrapWord_range h
  have c0 : (0#32 : BitVec 32).toInt = 0 := by decide
  have c1 : (99999#32 : BitVec 32).toInt = 99999 := by decide
  exact IntOp.andi_eq_one.2 ⟨IntOp.cmpi_sge.2 (c0 ▸ h0), IntOp.cmpi_sle.2 (c1 ▸ h1)⟩

/-! ## A reduction by `and` of all ones -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_of_all f hf l

/-- A reduce by `and`, from the constant 1, of an array that is 1 everywhere is 1 at every result index. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_of_all x hx _

/-- A select whose mask is 1 everywhere is its first branch. -/
theorem select_of_all {s : Shape} {α : Type} (c : IVec s 1) (a b : s.Idx → α) (hc : ∀ i, c i = 1#1) :
    select c a b = a := by
  funext i
  show Scalar.select (c i) (a i) (b i) = a i
  rw [hc i]
  rfl

/-! ## The printed operations, composed -/

variable [Facts]
open Facts₀ Facts

/-- %5 of the outlined function: the indices wrapped, as a column. -/
def wrapIdx (idx : IVec S1000000 32) : IVec S1000000x1 32 :=
  broadcastInDim S1000000x1 ![0] bcast_S1000000_S1000000x1_0
    (select
      (cmpi .slt idx (broadcastInDim S1000000 ![] bcast_S_S1000000 (constantI S_ 32 0#32)))
      (addi idx (broadcastInDim S1000000 ![] bcast_S_S1000000 (constantI S_ 32 100000#32)))
      idx)

/-- %11: the two range tests of the wrapped column, conjoined. -/
def inRange (idx : IVec S1000000 32) : IVec S1000000x1 1 :=
  andi
    (cmpi .sge (wrapIdx idx) (broadcastInDim S1000000x1 ![] bcast_S_S1000000x1 (constantI S_ 32 0#32)))
    (cmpi .sle (wrapIdx idx)
      (broadcastInDim S1000000x1 ![0, 1] bcast_S1x1_S1000000x1_0_1
        (broadcastInDim S1x1 ![1] bcast_S1_S1x1_1 (constantI S1 32 99999#32))))

/-- %12: the tests reduced by `and` over the one-element axis. -/
def rowOk (idx : IVec S1000000 32) : IVec S1000000 1 :=
  Host.reduce IntOp.andi (inRange idx) (constantI S_ 1 1#1) reducesTo_S1000000x1_S1000000_d1 h_S_

/-- %16, the function's result: the gathered rows where the row's test holds, the fill elsewhere. -/
def takeK {F : FTy → Type} [FloatOps F] (x : FVec F S100000x128 .f32) (idx : IVec S1000000 32) :
    FVec F S1000000x128 .f32 :=
  select
    (broadcastInDim S1000000x128 ![0] bcast_S1000000_S1000000x128_0 (rowOk idx))
    (Host.gather gather_S100000x128_S1000000x1_S1000000x128_1_0_n_n_0_1_1128 x (wrapIdx idx))
    (broadcastInDim S1000000x128 ![] bcast_S_S1000000x128 (constant (F := F) S_ .f32 0x7FC00000#32))

/-! ## Under the range hypothesis -/

/-- Every entry of the wrapped column is the wrap of one entry of the index vector. -/
theorem wrapIdx_apply (idx : IVec S1000000 32) (j : S1000000x1.Idx) : ∃ i, wrapIdx idx j = wrapWord (idx i) :=
  ⟨_, rfl⟩

theorem inRange_eq_one (idx : IVec S1000000 32) (h : ∀ i, (-100000 : Int) ≤ (idx i).toInt ∧ (idx i).toInt < 100000)
    (j : S1000000x1.Idx) : inRange idx j = 1#1 := by
  obtain ⟨i, hi⟩ := wrapIdx_apply idx j
  show IntOp.andi (IntOp.cmpi .sge (wrapIdx idx j) 0#32) (IntOp.cmpi .sle (wrapIdx idx j) 99999#32) = 1#1
  rw [hi]
  exact wrapWord_tests (h i)

theorem rowOk_eq_one (idx : IVec S1000000 32) (h : ∀ i, (-100000 : Int) ≤ (idx i).toInt ∧ (idx i).toInt < 100000)
    (r : S1000000.Idx) : rowOk idx r = 1#1 := by
  unfold rowOk
  exact reduce_andi_of_all (u := S_) (inRange idx) reducesTo_S1000000x1_S1000000_d1 h_S_ (inRange_eq_one idx h) r

/-- With every index in [−100000, 100000) the fill is never taken: the function is the gather at the wrapped column. -/
theorem takeK_eq_gather {F : FTy → Type} [FloatOps F] (x : FVec F S100000x128 .f32) (idx : IVec S1000000 32)
    (h : ∀ i, (-100000 : Int) ≤ (idx i).toInt ∧ (idx i).toInt < 100000) :
    takeK x idx = Host.gather gather_S100000x128_S1000000x1_S1000000x128_1_0_n_n_0_1_1128 x (wrapIdx idx) := by
  unfold takeK
  exact select_of_all _ _ _ fun k => rowOk_eq_one idx h _

end Cert.KernelIdeal.Take

end
-- ==== Proof.TakeFold.lean ====
/-
  The two row gathers of the host, read through the buffer contents at the boundaries of the host stretches before
  the third region.

  Between the second and the third region the host runs the outlined row gather twice (once per index vector) and
  then two transposes and three reshapes.  The first gather's operations, read one after the other at its result
  buffer, compose to the gather function of the table and the index vector held when the second region ended; the
  later stretches write neither that result nor, for the second gather, anything the first one wrote that it reads.
  An outlined function's operations move contents between a value's type and its buffer's type, which are the same
  type once the buffer is known: those moves cancel in pairs inside the composed term and are the identity at its
  two ends.
-/
import proofs.«429735_j71863392796798_1_alg».proof.Proof.Gen.KernelIdeal.Frame
import proofs.«429735_j71863392796798_1_alg».proof.Proof.TakeForm
import Idealize.ShloMosaic.Lib.StableHlo.Run

noncomputable section

namespace Cert.KernelIdeal.TakeFold

open Idealize.ShloMosaic Cert.KernelIdeal Cert.KernelIdeal.Gen
open Idealize.ShloMosaic.StableHlo

variable {F : FTy → Type} [FloatOps F]

/-- Contents moved to a typed reference's buffer type and back are unchanged. -/
theorem ofBuf_toBuf {T : BufTy} (x : TRef sig T) (v : T.Contents (Elt F)) : x.ofBuf (x.toBuf v) = v := by
  simp only [TRef.ofBuf, TRef.toBuf, cast_cast, cast_eq]

/-- A buffer none of a stretch's operations writes holds after the stretch what it held before: the stretch's
    operations write one buffer each, and the buffer differs from every one of them as a reference. -/
local macro "unwritten" ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The first gather: table `main_v3`, indices `main_arg3`, result `main_v7` -/

abbrev r7 : TRef sig ⟨S1000000x128, .f32⟩ := .of main_v7
abbrev r3 : TRef sig ⟨S100000x128, .f32⟩ := .of main_v3
abbrev ra3 : TRef sig ⟨S1000000, .i32⟩ := .of main_arg3

/-- The first gather's stretch read at its result, the moves between value type and buffer type still at the ends. -/
theorem take0_ends (V : Valuation τ sig (Elt F)) :
    StableHlo.after hostOps2 V (Proc.devRef .tc main_v7)
      = r7.toBuf (Take.takeK (r3.ofBuf (V (Proc.devRef .tc main_v3))) (ra3.ofBuf (V (Proc.devRef .tc main_arg3)))) := by
  after_results_simp
  simp only [ofBuf_toBuf]
  rfl

theorem r7_toBuf (X : FVec F S1000000x128 .f32) : r7.toBuf (Val := Elt F) X = X := rfl
theorem r3_ofBuf (V : Valuation τ sig (Elt F)) :
    (r3.ofBuf (V (Proc.devRef .tc main_v3)) : FVec F S100000x128 .f32) = V (Proc.devRef .tc main_v3) := rfl
theorem ra3_ofBuf (V : Valuation τ sig (Elt F)) :
    (ra3.ofBuf (V (Proc.devRef .tc main_arg3)) : IVec S1000000 32) = V (Proc.devRef .tc main_arg3) := rfl

/-- The first gather's stretch, from any contents: its result is the gather function of the table and the indices. -/
theorem take0 (V : Valuation τ sig (Elt F)) :
    StableHlo.after hostOps2 V (Proc.devRef .tc main_v7)
      = Take.takeK (V (Proc.devRef .tc main_v3)) (V (Proc.devRef .tc main_arg3)) :=
  (take0_ends V).trans ((r7_toBuf _).trans (congrArg₂ Take.takeK (r3_ofBuf V) (ra3_ofBuf V)))

/-! ## The second gather: table `main_v6`, indices `main_arg4`, result `main_v8` -/

abbrev r8 : TRef sig ⟨S1000000x128, .f32⟩ := .of main_v8
abbrev r6 : TRef sig ⟨S100000x128, .f32⟩ := .of main_v6
abbrev ra4 : TRef sig ⟨S1000000, .i32⟩ := .of main_arg4

theorem take1_ends (V : Valuation τ sig (Elt F)) :
    StableHlo.after hostOps2_1 V (Proc.devRef .tc main_v8)
      = r8.toBuf (Take.takeK (r6.ofBuf (V (Proc.devRef .tc main_v6))) (ra4.ofBuf (V (Proc.devRef .tc main_arg4)))) := by
  after_results_simp
  simp only [ofBuf_toBuf]
  rfl

theorem r8_toBuf (X : FVec F S1000000x128 .f32) : r8.toBuf (Val := Elt F) X = X := rfl
theorem r6_ofBuf (V : Valuation τ sig (Elt F)) :
    (r6.ofBuf (V (Proc.devRef .tc main_v6)) : FVec F S100000x128 .f32) = V (Proc.devRef .tc main_v6) := rfl
theorem ra4_ofBuf (V : Valuation τ sig (Elt F)) :
    (ra4.ofBuf (V (Proc.devRef .tc main_arg4)) : IVec S1000000 32) = V (Proc.devRef .tc main_arg4) := rfl

/-- The second gather's stretch, from any contents. -/
theorem take1 (V : Valuation τ sig (Elt F)) :
    StableHlo.after hostOps2_1 V (Proc.devRef .tc main_v8)
      = Take.takeK (V (Proc.devRef .tc main_v6)) (V (Proc.devRef .tc main_arg4)) :=
  (take1_ends V).trans ((r8_toBuf _).trans (congrArg₂ Take.takeK (r6_ofBuf V) (ra4_ofBuf V)))

/-! ## Through the boundaries -/

variable (m : (ℓ : Loc nD τ sig) → Buf (Elt F) ℓ) (ρ : Dev nD → PrngReg)

/-- At the third region's entry the buffer of the source rows holds the gather of the first projection's rows
    (what the second region's end holds at `main_v3`) at the source indices. -/
theorem W7_src (c : Dev nD) :
    W7 m ρ c (Proc.devRef .tc main_v7)
      = Take.takeK (W4 m ρ c (Proc.devRef .tc main_v3)) (W4 m ρ c (Proc.devRef .tc main_arg3)) :=
  calc W7 m ρ c (Proc.devRef .tc main_v7)
    _ = W6 m ρ c (Proc.devRef .tc main_v7) := by unwritten hostOps2_2
    _ = W5 m ρ c (Proc.devRef .tc main_v7) := by unwritten hostOps2_1
    _ = _ := take0 (W4 m ρ c)

/-- At the third region's entry the buffer of the destination rows holds the gather of the second projection's rows
    (what the second region's end holds at `main_v6`) at the destination indices. -/
theorem W7_dst (c : Dev nD) :
    W7 m ρ c (Proc.devRef .tc main_v8)
      = Take.takeK (W4 m ρ c (Proc.devRef .tc main_v6)) (W4 m ρ c (Proc.devRef .tc main_arg4)) := by
  have e6 : W5 m ρ c (Proc.devRef .tc main_v6) = W4 m ρ c (Proc.devRef .tc main_v6) := by unwritten hostOps2
  have e4 : W5 m ρ c (Proc.devRef .tc main_arg4) = W4 m ρ c (Proc.devRef .tc main_arg4) := by unwritten hostOps2
  calc W7 m ρ c (Proc.devRef .tc main_v8)
    _ = W6 m ρ c (Proc.devRef .tc main_v8) := by unwritten hostOps2_2
    _ = Take.takeK (W5 m ρ c (Proc.devRef .tc main_v6)) (W5 m ρ c (Proc.devRef .tc main_arg4)) := take1 (W5 m ρ c)
    _ = _ := by rw [e6, e4]

end Cert.KernelIdeal.TakeFold

end
-- ==== Proof.RowBridge.lean ====
import proofs.«429735_j71863392796798_1_alg».proof.Proof.NodeAtGather
import proofs.«429735_j71863392796798_1_alg».proof.Proof.LibDenseForms
import Idealize.ShloMosaic.Lib.ValueLayout

set_option maxRecDepth 16384

noncomputable section

namespace Cert.KernelIdeal.RowBridge

open Cert.KernelIdeal Cert.KernelIdeal.Gen
open Idealize.ShloMosaic Idealize.ShloMosaic.TcCoe
open Idealize.SL Idealize.SL.Sem
open DenseRows EdgeSpec

variable (m : (ℓ : Loc nD τ sig) → Buf (Elt Ideal) ℓ) (ρ : Dev nD → PrngReg)

open Idealize.ShloMosaic.ValueIdx NodeAtGather

/-! # One-row operands

The kernel passes each bias, scale and shift vector as a one-row matrix made by a cast, and the first projection's
bias is the zero vector. A vector cast to one row is that row, and adding the zero row changes nothing, so the first
projection is the bare matrix product. -/

/-- A length-128 vector cast to one row is that row. -/
theorem row_eq_asRow (x : FVec Ideal S128 .f32) : row x = asRow x := shapeCast_asRow x _

/-- The zero row holds 0 everywhere. -/
theorem zeroRow_apply (q : Fin 128) : zeroRow (ix2 (0 : Fin 1) q) = 0 := by
  show shapeCast S1x128 (broadcastInDim S128 ![] bcast_S_S128 (constant (F := Ideal) S_ .f32 0x00000000#32))
    shapeCasts_S128_S1x128 (ix2 (0 : Fin 1) q) = 0
  rw [shapeCast_a_1a_apply]
  show Ideal.ofBits .f32 0x00000000#32 = 0
  exact Ideal.ofBits_zero_f32

/-- With the zero row for a bias, a projection is the matrix product. -/
theorem nodeProj_zeroRow (X : Mat 100000 128) (W : Mat 128 128) : nodeProj X W zeroRow = mm X W := by
  funext i
  obtain ⟨p, q, rfl⟩ : ∃ (p : Fin 100000) (q : Fin 128), i = ix2 p q := ⟨i 0, i 1, eq_ix2 i⟩
  show mm X W (ix2 p q) + zeroRow (ix2 (0 : Fin 1) q) = mm X W (ix2 p q)
  rw [zeroRow_apply, add_zero]

end Cert.KernelIdeal.RowBridge

end
-- ==== Proof.RefTerm.lean ====
/-
  The reference's result as a pure term of its thirteen argument arrays, at the ideal instance
  (a float an extended real), in stages. Each stage is a definition whose body is the printed
  operations of that stretch of @main (or of the outlined function it calls) composed, with the
  same shape records and the same evidence terms, so that the term a run of @main leaves in the
  result buffer is the composition of the stages by unfolding alone.

  Stages, in the order @main computes them:
    wrapIdx     an index vector with 100000 added where it is negative, as a column   (%9–%14, %17–%22)
    projE       efeat @ w_efeat.T                                                      (%0, %1)
    projSrc     src_feat @ w_src.T                                                     (%2, %3)
    projDst     dst_feat @ w_dst.T + b1                                                (%4–%8)
    summed      projE + projSrc[src_idx] + projDst[dst_idx]                            (%15, %16, %23, %24)
    silu        x * (1 / (1 + exp (-x)))                                               (@silu)
    hidden      silu(..) @ w2.T + b2                                                   (%26–%30)
    rowMean     the row sum over 128                                                   (%31–%34)
    centered    h less its row mean broadcast along the rows                           (%36, %37; @_var's %4, %5)
    rowVar      the row sum of squared deviations over (128 - 0), selected against NaN (@_var, @_where)
    normed      (h - mean) * rsqrt (var + eps) * gamma + beta                          (%36–%48)
    result      their composition
-/
import proofs.«429735_j71863392796798_1_alg».proof.ReferenceIdeal
import Idealize.ShloMosaic.PureOps.Ideal

noncomputable section

namespace Cert.ReferenceIdeal.RefTerm

open Idealize.ShloMosaic Idealize.SL.Sem
open Cert.ReferenceIdeal Cert.ReferenceIdeal.Facts₀ Cert.ReferenceIdeal.Facts

variable [Cert.ReferenceIdeal.Facts]

/-- An index vector made non-negative the way jnp indexing does — 100000 added where the index is
    below zero — and laid out as a column (%9–%14 for src_idx, %17–%22 for dst_idx: the same text). -/
def wrapIdx (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 100000#32)))
      idx)

/-- efeat @ w_efeat.T (%0, %1). -/
def projE (a0 : FVec Ideal S1000000x128 .f32) (a5 : FVec Ideal S128x128 .f32) : FVec Ideal S1000000x128 .f32 :=
  Host.dotGeneral dot_S1000000x128_S128x128_S1000000x128_1_0_0_1_n_n none a0
    (transpose S128x128 [1, 0] a5 transposes_S128x128_S128x128_1_0)

/-- src_feat @ w_src.T (%2, %3). -/
def projSrc (a1 : FVec Ideal S100000x128 .f32) (a6 : FVec Ideal S128x128 .f32) : FVec Ideal S100000x128 .f32 :=
  Host.dotGeneral dot_S100000x128_S128x128_S100000x128_1_0_0_1_n_n none a1
    (transpose S128x128 [1, 0] a6 transposes_S128x128_S128x128_1_0)

/-- dst_feat @ w_dst.T + b1, the bias broadcast over the rows (%4–%8). -/
def projDst (a2 : FVec Ideal S100000x128 .f32) (a7 : FVec Ideal S128x128 .f32) (a8 : FVec Ideal S128 .f32) :
    FVec Ideal S100000x128 .f32 :=
  addf
    (Host.dotGeneral dot_S100000x128_S128x128_S100000x128_1_0_0_1_n_n none a2
      (transpose S128x128 [1, 0] a7 transposes_S128x128_S128x128_1_0))
    (broadcastInDim S100000x128 ![0, 1] bcast_S1x128_S100000x128_0_1
      (broadcastInDim S1x128 ![1] bcast_S128_S1x128_1 a8))

/-- The edge projection plus the two gathered node projections (%15, %16, %23, %24). -/
def summed (a0 : FVec Ideal S1000000x128 .f32) (a1 a2 : FVec Ideal S100000x128 .f32) (a3 a4 : IVec S1000000 32)
    (a5 a6 a7 : FVec Ideal S128x128 .f32) (a8 : FVec Ideal S128 .f32) : FVec Ideal S1000000x128 .f32 :=
  addf
    (addf (projE a0 a5)
      (Host.gather gather_S100000x128_S1000000x1_S1000000x128_1_0_n_n_0_1_1128 (projSrc a1 a6) (wrapIdx a3)))
    (Host.gather gather_S100000x128_S1000000x1_S1000000x128_1_0_n_n_0_1_1128 (projDst a2 a7 a8) (wrapIdx a4))

/-- @silu's body: x * (1 / (1 + exp (-x))), the two ones each a broadcast constant (%0–%6 of @silu). -/
def silu (x : FVec Ideal S1000000x128 .f32) : FVec Ideal S1000000x128 .f32 :=
  mulf x
    (Host.divf
      (broadcastInDim S1000000x128 ![] bcast_S_S1000000x128 (constant S_ .f32 0x3F800000#32))
      (addf
        (broadcastInDim S1000000x128 ![] bcast_S_S1000000x128 (constant S_ .f32 0x3F800000#32))
        (Host.exp (Host.negf x))))

/-- x @ w2.T + b2, the bias broadcast over the rows (%26–%30). -/
def hidden (x : FVec Ideal S1000000x128 .f32) (a9 : FVec Ideal S128x128 .f32) (a10 : FVec Ideal S128 .f32) :
    FVec Ideal S1000000x128 .f32 :=
  addf
    (Host.dotGeneral dot_S1000000x128_S128x128_S1000000x128_1_0_0_1_n_n none x
      (transpose S128x128 [1, 0] a9 transposes_S128x128_S128x128_1_0))
    (broadcastInDim S1000000x128 ![0, 1] bcast_S1x128_S1000000x128_0_1
      (broadcastInDim S1x128 ![1] bcast_S128_S1x128_1 a10))

/-- The mean of each row, as a column: the row sum from zero, divided by 128 (%31–%34). -/
def rowMean (h : FVec Ideal S1000000x128 .f32) : FVec Ideal S1000000x1 .f32 :=
  Host.divf
    (broadcastInDim S1000000x1 ![0] bcast_S1000000_S1000000x1_0
      (Host.reduceAdd h (constant S_ .f32 0x00000000#32) reducesTo_S1000000x128_S1000000_d1 h_S_))
    (broadcastInDim S1000000x1 ![] bcast_S_S1000000x1 (constant S_ .f32 0x43000000#32))

/-- The count @_var divides by: 128 minus its second argument converted to a float, the argument
    being the printed integer constant 0 (%7, %8 of @_var over %c_4). -/
def varCount : FVec Ideal S_ .f32 :=
  subf (constant S_ .f32 0x43000000#32) (sitofp .f32 (constantI S_ 32 0#32))

/-- Each row less its mean: the mean column broadcast along the row and subtracted (%36, %37; the
    same text is %4, %5 of @_var over its own copy of the mean, %0–%3 there being %31–%34 again). -/
def centered (h : FVec Ideal S1000000x128 .f32) : FVec Ideal S1000000x128 .f32 :=
  subf h (broadcastInDim S1000000x128 ![0, 1] bcast_S1000000x1_S1000000x128_0_1 (rowMean h))

/-- The variance of each row, as a column (@_var's body over h and the constant 0, and the @_where
    it ends in): the row sum from zero of the squared deviations from the row mean, divided by the
    count, kept where the count is positive and NaN elsewhere. -/
def rowVar (h : FVec Ideal S1000000x128 .f32) : FVec Ideal S1000000x1 .f32 :=
  select (broadcastInDim S1000000x1 ![] bcast_S_S1000000x1 (cmpf .ogt varCount (constant S_ .f32 0x00000000#32)))
    (Host.divf
      (broadcastInDim S1000000x1 ![0] bcast_S1000000_S1000000x1_0
        (Host.reduceAdd (mulf (centered h) (centered h)) (constant S_ .f32 0x00000000#32)
          reducesTo_S1000000x128_S1000000_d1 h_S_))
      (broadcastInDim S1000000x1 ![] bcast_S_S1000000x1 varCount))
    (broadcastInDim S1000000x1 ![] bcast_S_S1000000x1 (id (constant S_ .f32 0x7FC00000#32)))

/-- The normalization: (h - mean) * rsqrt (var + eps) * gamma + beta, the column factor broadcast
    along the rows and gamma, beta over them (%36–%48). -/
def normed (h : FVec Ideal S1000000x128 .f32) (a11 a12 : FVec Ideal S128 .f32) : FVec Ideal S1000000x128 .f32 :=
  addf
    (mulf
      (mulf (centered h)
        (broadcastInDim S1000000x128 ![0, 1] bcast_S1000000x1_S1000000x128_0_1
          (Host.rsqrt
            (addf (rowVar h)
              (broadcastInDim S1000000x1 ![] bcast_S_S1000000x1 (constant S_ .f32 0x3727C5AC#32))))))
      (broadcastInDim S1000000x128 ![0, 1] bcast_S1x128_S1000000x128_0_1
        (broadcastInDim S1x128 ![1] bcast_S128_S1x128_1 a11)))
    (broadcastInDim S1000000x128 ![0, 1] bcast_S1x128_S1000000x128_0_1
      (broadcastInDim S1x128 ![1] bcast_S128_S1x128_1 a12))

/-- The reference's result: the stages composed. -/
def result (a0 : FVec Ideal S1000000x128 .f32) (a1 a2 : FVec Ideal S100000x128 .f32) (a3 a4 : IVec S1000000 32)
    (a5 a6 a7 : FVec Ideal S128x128 .f32) (a8 : FVec Ideal S128 .f32) (a9 : FVec Ideal S128x128 .f32)
    (a10 a11 a12 : FVec Ideal S128 .f32) : FVec Ideal S1000000x128 .f32 :=
  normed (hidden (silu (summed a0 a1 a2 a3 a4 a5 a6 a7 a8)) a9 a10) a11 a12

end Cert.ReferenceIdeal.RefTerm

end
-- ==== Proof.Bridge.lean ====
/-
  The two programs compute one function of the arguments.

  The kernel's result is the edge update of the edge features, of the two node projections gathered in fill mode, and
  of the transposed weights and the one-row biases, scale and shift. The reference's is the same edge update of the
  edge features and of the two node projections gathered plainly. With every index in [−100000, 100000) the fill-mode
  gather never takes its fill and is the plain gather at the same wrapped index column; the first projection's zero
  bias row adds nothing; a vector cast to one row is that row. What is left differs only in which program's copy of a
  shape fact is cited.
-/
import proofs.«429735_j71863392796798_1_alg».proof.Proof.NodeAtGather
import proofs.«429735_j71863392796798_1_alg».proof.Proof.RowBridge
import proofs.«429735_j71863392796798_1_alg».proof.Proof.TakeForm
import proofs.«429735_j71863392796798_1_alg».proof.Proof.EdgePay
import proofs.«429735_j71863392796798_1_alg».proof.Proof.RefTerm

noncomputable section

namespace Cert.Bridge

open Idealize.ShloMosaic Idealize.ShloMosaic.ValueIdx DenseRows EdgeSpec
open Cert.KernelIdeal.NodeAtGather Cert.KernelIdeal.RowBridge Cert.KernelIdeal.EdgePay

variable [Cert.KernelIdeal.Facts] [Cert.ReferenceIdeal.Facts]

/-- The kernel's result as a function of its thirteen arguments. -/
def kernelValue (a0 : Mat 1000000 128) (a1 a2 : Mat 100000 128) (a3 a4 : IVec Cert.KernelIdeal.S1000000 32)
    (a5 a6 a7 : Mat 128 128) (a8 : Col 128) (a9 : Mat 128 128) (a10 a11 a12 : Col 128) : Mat 1000000 128 :=
  edgeOut d128 eps a0
    (Cert.KernelIdeal.Take.takeK (nodeProj a1 (tr a6) zeroRow) a3)
    (Cert.KernelIdeal.Take.takeK (nodeProj a2 (tr a7) (row a8)) a4)
    (tr a5) (tr a9) (row a10) (row a11) (row a12)

/-- The printed transpose of a weight argument, as the reference cites it. -/
abbrev trR (x : Mat 128 128) : Mat 128 128 :=
  transpose Cert.ReferenceIdeal.S128x128 [1, 0] x Cert.ReferenceIdeal.Facts₀.transposes_S128x128_S128x128_1_0

/-- The reference's result in the specification's terms. -/
def refValue (a0 : Mat 1000000 128) (a1 a2 : Mat 100000 128) (a3 a4 : IVec Cert.ReferenceIdeal.S1000000 32)
    (a5 a6 a7 : Mat 128 128) (a8 : Col 128) (a9 : Mat 128 128) (a10 a11 a12 : Col 128) : Mat 1000000 128 :=
  edgeOut (Ideal.ofBits .f32 0x43000000#32) (Ideal.ofBits .f32 0x3727C5AC#32) a0
    (Host.gather Cert.ReferenceIdeal.gather_S100000x128_S1000000x1_S1000000x128_1_0_n_n_0_1_1128
      (mm a1 (trR a6)) (Cert.ReferenceIdeal.RefTerm.wrapIdx a3))
    (Host.gather Cert.ReferenceIdeal.gather_S100000x128_S1000000x1_S1000000x128_1_0_n_n_0_1_1128
      (addRow (mm a2 (trR a7)) (asRow a8)) (Cert.ReferenceIdeal.RefTerm.wrapIdx a4))
    (trR a5) (trR a9) (asRow a10) (asRow a11) (asRow a12)

/-- Both programs wrap an index column by the same operations. -/
theorem wrapIdx_eq (idx : IVec Cert.KernelIdeal.S1000000 32) :
    Cert.KernelIdeal.Take.wrapIdx idx = Cert.ReferenceIdeal.RefTerm.wrapIdx idx := rfl

/-- Both programs gather rows by the same dimension numbers. -/
theorem gather_eq :
    Cert.KernelIdeal.gather_S100000x128_S1000000x1_S1000000x128_1_0_n_n_0_1_1128
      = Cert.ReferenceIdeal.gather_S100000x128_S1000000x1_S1000000x128_1_0_n_n_0_1_1128 := rfl

/-- Both programs transpose a weight argument by the same permutation. -/
theorem tr_eq (x : Mat 128 128) : tr x = trR x := rfl

/-- With both index vectors in [−100000, 100000), the kernel's function is the reference's. -/
theorem value_eq (a0 : Mat 1000000 128) (a1 a2 : Mat 100000 128) (a3 a4 : IVec Cert.KernelIdeal.S1000000 32)
    (a5 a6 a7 : Mat 128 128) (a8 : Col 128) (a9 : Mat 128 128) (a10 a11 a12 : Col 128)
    (h3 : ∀ i, (-100000 : Int) ≤ (a3 i).toInt ∧ (a3 i).toInt < 100000)
    (h4 : ∀ i, (-100000 : Int) ≤ (a4 i).toInt ∧ (a4 i).toInt < 100000) :
    kernelValue a0 a1 a2 a3 a4 a5 a6 a7 a8 a9 a10 a11 a12 = refValue a0 a1 a2 a3 a4 a5 a6 a7 a8 a9 a10 a11 a12 := by
  unfold kernelValue refValue
  rw [Cert.KernelIdeal.Take.takeK_eq_gather _ a3 h3, Cert.KernelIdeal.Take.takeK_eq_gather _ a4 h4,
    nodeProj_zeroRow, row_eq_asRow a8, row_eq_asRow a10, row_eq_asRow a11, row_eq_asRow a12,
    wrapIdx_eq a3, wrapIdx_eq a4, gather_eq, tr_eq a5, tr_eq a6, tr_eq a7, tr_eq a9]
  rfl

end Cert.Bridge

end
-- ==== Proof.KernelValue.lean ====
import proofs.«429735_j71863392796798_1_alg».proof.Proof.Gen.KernelIdeal.Frame
import proofs.«429735_j71863392796798_1_alg».proof.Proof.EdgeValue
import proofs.«429735_j71863392796798_1_alg».proof.Proof.EdgeOperands
import proofs.«429735_j71863392796798_1_alg».proof.Proof.NodeAtGather
import proofs.«429735_j71863392796798_1_alg».proof.Proof.TakeFold
import proofs.«429735_j71863392796798_1_alg».proof.Proof.Bridge

set_option maxRecDepth 16384

noncomputable section

namespace Cert.KernelIdeal.KernelValue

open Cert.KernelIdeal Cert.KernelIdeal.Gen
open Idealize.ShloMosaic Idealize.ShloMosaic.TcCoe
open Idealize.SL Idealize.SL.Sem
open DenseRows EdgeSpec

variable (m : (ℓ : Loc nD τ sig) → Buf (Elt Ideal) ℓ) (ρ : Dev nD → PrngReg)

open NodeAtGather

/-! # The kernel's result, as a function of the launch memory

The result buffer is the fused edge region's output array: the edge update of the region's eight operand arrays as the
region is entered. Those are the edge features as launched, the two node projections gathered in fill mode by the two
index arguments, the two transposed weight arguments, and the bias, scale and shift arguments as one row each. -/

/-- What the result buffer holds after @main, in terms of the thirteen arguments as launched. -/
theorem result (c : Dev nD) :
    W8 m ρ c (Proc.devRef .tc main_v14)
      = Cert.Bridge.kernelValue
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [show W8 m ρ c (Proc.devRef .tc main_v14) = (dat2 (V7 m ρ) c).arrAt 8 cfg2.N from W8_arr m ρ c 8,
    EdgeValue.arr (V7 m ρ) c]
  show edgeOut EdgePay.d128 EdgePay.eps (W7 m ρ c (Proc.devRef .tc main_arg0)) (W7 m ρ c (Proc.devRef .tc main_v7))
      (W7 m ρ c (Proc.devRef .tc main_v8)) (W7 m ρ c (Proc.devRef .tc main_v9)) (W7 m ρ c (Proc.devRef .tc main_v10))
      (W7 m ρ c (Proc.devRef .tc main_v11)) (W7 m ρ c (Proc.devRef .tc main_v12)) (W7 m ρ c (Proc.devRef .tc main_v13)) = _
  rw [EdgeOperands.W7_arg0 m ρ c, EdgeOperands.W7_v9 m ρ c, EdgeOperands.W7_v10 m ρ c, EdgeOperands.W7_v11 m ρ c,
    EdgeOperands.W7_v12 m ρ c, EdgeOperands.W7_v13 m ρ c, TakeFold.W7_src m ρ c, TakeFold.W7_dst m ρ c,
    NodeAtGather.src_proj m ρ c, NodeAtGather.dst_proj m ρ c, NodeFold.W4_arg3 m ρ c, NodeFold.W4_arg4 m ρ c]
  rfl

end Cert.KernelIdeal.KernelValue

end
-- ==== Proof.PreRanges.lean ====
/-
  The index ranges the precondition states.

  The printed precondition is a conjunction (a chain of `and`s over one-bit words) whose last two conjuncts are, for
  each of the two index inputs, the `and`-reduction over all entries of (−100000 ≤ entry) ∧ (entry < 100000), both
  compares signed.  When the whole conjunction is 1 these two conjuncts are 1, each reduction then has 1 at every
  entry, and a signed compare that is 1 is the inequality of the signed readings.
-/
import Idealize.ShloMosaic.Lib.ReduceAll
import Idealize.ShloMosaic.Lib.ValueIdx
import proofs.«429735_j71863392796798_1_alg».proof.Pre_finite_inputs

noncomputable section

namespace Cert.PreRanges

open Idealize.ShloMosaic Cert.Pre_finite_inputs

/-- The shape of rank 0 has one index. -/
instance : Subsingleton S_.Idx := ⟨fun a b => funext fun d => d.elim0⟩

variable [Cert.Pre_finite_inputs.Facts]
open Cert.Pre_finite_inputs.Facts

/-- One range test: the reduction by `and` of (−100000 ≤ a) ∧ (a < 100000) over all entries is 1 only if every entry's
    signed reading lies in that range. -/
theorem range_of_test (a : IVec S1000000 32)
    (e : Host.reduce IntOp.andi
        (andi (cmpi .sge a (broadcastInDim S1000000 ![] bcast_S_S1000000 (constantI S_ 32 4294867296#32)))
              (cmpi .slt a (broadcastInDim S1000000 ![] bcast_S_S1000000 (constantI S_ 32 100000#32))))
        (constantI S_ 1 1#1) reducesTo_S1000000_S_d0 h_S_ ValueIdx.ix0 = 1#1)
    (i : S1000000.Idx) : (-100000 : Int) ≤ (a i).toInt ∧ (a i).toInt < 100000 := by
  have h1 := Host.reduce_andi_all _ _ _ _ _ e i
  obtain ⟨h2, h3⟩ := IntOp.andi_eq_one.1 h1
  have h4 := IntOp.cmpi_sge.1 h2
  have h5 := IntOp.cmpi_slt.1 h3
  have c1 : (4294867296#32 : BitVec 32).toInt = -100000 := by decide
  have c2 : (100000#32 : BitVec 32).toInt = 100000 := by decide
  exact ⟨c1 ▸ h4, c2 ▸ h5⟩

/-- Under the precondition both index inputs lie in [−100000, 100000) at every entry. -/
theorem ranges {F : FTy → Type} [FloatOps F]
    (a0 : FVec F S1000000x128 .f32) (a1 : FVec F S100000x128 .f32) (a2 : FVec F S100000x128 .f32)
    (a3 : IVec S1000000 32) (a4 : IVec S1000000 32)
    (a5 : FVec F S128x128 .f32) (a6 : FVec F S128x128 .f32) (a7 : FVec F S128x128 .f32) (a8 : FVec F S128 .f32)
    (a9 : FVec F S128x128 .f32) (a10 : FVec F S128 .f32) (a11 : FVec F S128 .f32) (a12 : FVec F S128 .f32)
    (h : Cert.Pre_finite_inputs.fn (F := F) a0 a1 a2 a3 a4 a5 a6 a7 a8 a9 a10 a11 a12 = fun _ => 1#1) :
    (∀ i, (-100000 : Int) ≤ (a3 i).toInt ∧ (a3 i).toInt < 100000) ∧
      (∀ i, (-100000 : Int) ≤ (a4 i).toInt ∧ (a4 i).toInt < 100000) := by
  have h0 := congrFun h ValueIdx.ix0
  dsimp only [fn, fn_part1, fn_part2, fn_part3] at h0
  obtain ⟨h1, hb⟩ := IntOp.andi_eq_one.1 h0
  obtain ⟨_, ha⟩ := IntOp.andi_eq_one.1 h1
  exact ⟨range_of_test a3 ha, range_of_test a4 hb⟩

end Cert.PreRanges

end
-- ==== Proof.RefRun.lean ====
/-
  The run of the reference's @main, read back as a pure term of its arguments.

  @main is a straight line of 87 host operations once its two calls are read as what they execute:
  @silu's nine operations over the buffers of call 0, and @_var's twenty over the buffers of call 1
  with the three of the @_where it ends in over that call's own record. The operations in order are
  the list ops, given as five consecutive stretches (up to the sum of the three projections; @silu;
  the second linear layer and the row mean; @_var; the normalization); @main is that list run in
  sequence (the callees' definitions unfolded at their calls, the sequencing re-associated). From
  any memory with zero counters every weakly fair execution therefore terminates with each buffer
  at the fold of the operations' results over the launch contents. Each stretch is read on its own,
  from any contents: its result buffer holds the matching stage of RefTerm of the contents of the
  buffers it reads, and a buffer it does not write holds what it held. Folding the five readings
  over one another, the result buffer holds RefTerm.result of the thirteen arguments, and an
  argument buffer, which no operation writes, what the launch put there.
-/
import proofs.«429735_j71863392796798_1_alg».proof.Proof.RefTerm
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]

/-- %0–%24 with the four integer constants among them: the three projections, the two index vectors made non-negative, the two gathers and the two sums. -/
abbrev ops1 : List (HloOp τ sig (Elt Ideal)) :=
  [ unary main_arg5 main_v0 ((transpose S128x128 [1, 0] · transposes_S128x128_S128x128_1_0) : FVec Ideal S128x128 .f32 → FVec Ideal S128x128 .f32),
    binary main_arg0 main_v0 main_v1 ((fun l r => Host.dotGeneral dot_S1000000x128_S128x128_S1000000x128_1_0_0_1_n_n none l r) : FVec Ideal S1000000x128 .f32 → FVec Ideal S128x128 .f32 → FVec Ideal S1000000x128 .f32),
    unary main_arg6 main_v2 ((transpose S128x128 [1, 0] · transposes_S128x128_S128x128_1_0) : FVec Ideal S128x128 .f32 → FVec Ideal S128x128 .f32),
    binary main_arg1 main_v2 main_v3 ((fun l r => Host.dotGeneral dot_S100000x128_S128x128_S100000x128_1_0_0_1_n_n none l r) : FVec Ideal S100000x128 .f32 → FVec Ideal S128x128 .f32 → FVec Ideal S100000x128 .f32),
    unary main_arg7 main_v4 ((transpose S128x128 [1, 0] · transposes_S128x128_S128x128_1_0) : FVec Ideal S128x128 .f32 → FVec Ideal S128x128 .f32),
    binary main_arg2 main_v4 main_v5 ((fun l r => Host.dotGeneral dot_S100000x128_S128x128_S100000x128_1_0_0_1_n_n none l r) : FVec Ideal S100000x128 .f32 → FVec Ideal S128x128 .f32 → FVec Ideal S100000x128 .f32),
    unary main_arg8 main_v6 (broadcastInDim S1x128 ![1] bcast_S128_S1x128_1 : FVec Ideal S128 .f32 → FVec Ideal S1x128 .f32),
    unary main_v6 main_v7 (broadcastInDim S100000x128 ![0, 1] bcast_S1x128_S100000x128_0_1 : FVec Ideal S1x128 .f32 → FVec Ideal S100000x128 .f32),
    binary main_v5 main_v7 main_v8 (addf : FVec Ideal S100000x128 .f32 → FVec Ideal S100000x128 .f32 → FVec Ideal S100000x128 .f32),
    nullary main_c (constantI S_ 32 0#32),
    unary main_c main_v9 (broadcastInDim S1000000 ![] bcast_S_S1000000 : IVec S_ 32 → IVec S1000000 32),
    binary main_arg3 main_v9 main_v10 (cmpi .slt : IVec S1000000 32 → IVec S1000000 32 → IVec S1000000 1),
    nullary main_c_0 (constantI S_ 32 100000#32),
    unary main_c_0 main_v11 (broadcastInDim S1000000 ![] bcast_S_S1000000 : IVec S_ 32 → IVec S1000000 32),
    binary main_arg3 main_v11 main_v12 (addi : IVec S1000000 32 → IVec S1000000 32 → IVec S1000000 32),
    ternary main_v10 main_v12 main_arg3 main_v13 (select : IVec S1000000 1 → IVec S1000000 32 → IVec S1000000 32 → IVec S1000000 32),
    unary main_v13 main_v14 (broadcastInDim S1000000x1 ![0] bcast_S1000000_S1000000x1_0 : IVec S1000000 32 → IVec S1000000x1 32),
    binary main_v3 main_v14 main_v15 ((fun x i => Host.gather gather_S100000x128_S1000000x1_S1000000x128_1_0_n_n_0_1_1128 x i) : FVec Ideal S100000x128 .f32 → IVec S1000000x1 32 → FVec Ideal S1000000x128 .f32),
    binary main_v1 main_v15 main_v16 (addf : FVec Ideal S1000000x128 .f32 → FVec Ideal S1000000x128 .f32 → FVec Ideal S1000000x128 .f32),
    nullary main_c_1 (constantI S_ 32 0#32),
    unary main_c_1 main_v17 (broadcastInDim S1000000 ![] bcast_S_S1000000 : IVec S_ 32 → IVec S1000000 32),
    binary main_arg4 main_v17 main_v18 (cmpi .slt : IVec S1000000 32 → IVec S1000000 32 → IVec S1000000 1),
    nullary main_c_2 (constantI S_ 32 100000#32),
    unary main_c_2 main_v19 (broadcastInDim S1000000 ![] bcast_S_S1000000 : IVec S_ 32 → IVec S1000000 32),
    binary main_arg4 main_v19 main_v20 (addi : IVec S1000000 32 → IVec S1000000 32 → IVec S1000000 32),
    ternary main_v18 main_v20 main_arg4 main_v21 (select : IVec S1000000 1 → IVec S1000000 32 → IVec S1000000 32 → IVec S1000000 32),
    unary main_v21 main_v22 (broadcastInDim S1000000x1 ![0] bcast_S1000000_S1000000x1_0 : IVec S1000000 32 → IVec S1000000x1 32),
    binary main_v8 main_v22 main_v23 ((fun x i => Host.gather gather_S100000x128_S1000000x1_S1000000x128_1_0_n_n_0_1_1128 x i) : FVec Ideal S100000x128 .f32 → IVec S1000000x1 32 → FVec Ideal S1000000x128 .f32),
    binary main_v16 main_v23 main_v24 (addf : FVec Ideal S1000000x128 .f32 → FVec Ideal S1000000x128 .f32 → FVec Ideal S1000000x128 .f32) ]

/-- @silu's nine operations over main_call0's buffers, the argument main_v24 (%25). -/
abbrev opsSilu : List (HloOp τ sig (Elt Ideal)) :=
  [ TRef.unary (TRef.of main_v24 : TRef sig ⟨S1000000x128, .f32⟩) main_call0.v0 (Host.negf (F := Ideal) (φ := .f32)),
    TRef.unary main_call0.v0 main_call0.v1 (Host.exp (F := Ideal) (φ := .f32)),
    TRef.nullary main_call0.cst (constant (F := Ideal) S_ .f32 0x3F800000#32),
    TRef.unary main_call0.cst main_call0.v2 (broadcastInDim S1000000x128 ![] bcast_S_S1000000x128),
    TRef.binary main_call0.v2 main_call0.v1 main_call0.v3 (addf (F := Ideal) (φ := .f32)),
    TRef.nullary main_call0.cst_0 (constant (F := Ideal) S_ .f32 0x3F800000#32),
    TRef.unary main_call0.cst_0 main_call0.v4 (broadcastInDim S1000000x128 ![] bcast_S_S1000000x128),
    TRef.binary main_call0.v4 main_call0.v3 main_call0.v5 (Host.divf (F := Ideal) (φ := .f32)),
    TRef.binary (TRef.of main_v24 : TRef sig ⟨S1000000x128, .f32⟩) main_call0.v5 main_call0.v6 (mulf (F := Ideal) (φ := .f32)) ]

/-- %26–%34 with the constants among them, and the integer constant %c_4 that @_var is handed. -/
abbrev ops2 : List (HloOp τ sig (Elt Ideal)) :=
  [ unary main_arg9 main_v26 ((transpose S128x128 [1, 0] · transposes_S128x128_S128x128_1_0) : FVec Ideal S128x128 .f32 → FVec Ideal S128x128 .f32),
    binary main_v25 main_v26 main_v27 ((fun l r => Host.dotGeneral dot_S1000000x128_S128x128_S1000000x128_1_0_0_1_n_n none l r) : FVec Ideal S1000000x128 .f32 → FVec Ideal S128x128 .f32 → FVec Ideal S1000000x128 .f32),
    unary main_arg10 main_v28 (broadcastInDim S1x128 ![1] bcast_S128_S1x128_1 : FVec Ideal S128 .f32 → FVec Ideal S1x128 .f32),
    unary main_v28 main_v29 (broadcastInDim S1000000x128 ![0, 1] bcast_S1x128_S1000000x128_0_1 : FVec Ideal S1x128 .f32 → FVec Ideal S1000000x128 .f32),
    binary main_v27 main_v29 main_v30 (addf : FVec Ideal S1000000x128 .f32 → FVec Ideal S1000000x128 .f32 → FVec Ideal S1000000x128 .f32),
    nullary main_cst (constant (F := Ideal) S_ .f32 0x00000000#32),
    binary main_v30 main_cst main_v31 ((fun x v => Host.reduceAdd x v reducesTo_S1000000x128_S1000000_d1 h_S_) : FVec Ideal S1000000x128 .f32 → FVec Ideal S_ .f32 → FVec Ideal S1000000 .f32),
    unary main_v31 main_v32 (broadcastInDim S1000000x1 ![0] bcast_S1000000_S1000000x1_0 : FVec Ideal S1000000 .f32 → FVec Ideal S1000000x1 .f32),
    nullary main_cst_3 (constant (F := Ideal) S_ .f32 0x43000000#32),
    unary main_cst_3 main_v33 (broadcastInDim S1000000x1 ![] bcast_S_S1000000x1 : FVec Ideal S_ .f32 → FVec Ideal S1000000x1 .f32),
    binary main_v32 main_v33 main_v34 (Host.divf : FVec Ideal S1000000x1 .f32 → FVec Ideal S1000000x1 .f32 → FVec Ideal S1000000x1 .f32),
    nullary main_c_4 (constantI S_ 32 0#32) ]

/-- @_var's twenty operations over main_call1's buffers, the arguments main_v30 and main_c_4, and the three of the @_where it ends in over main_call1.call0's (%35). -/
abbrev opsVar : List (HloOp τ sig (Elt Ideal)) :=
  [ TRef.nullary main_call1.cst (constant (F := Ideal) S_ .f32 0x00000000#32),
    TRef.binary (TRef.of main_v30 : TRef sig ⟨S1000000x128, .f32⟩) main_call1.cst main_call1.v0 (fun x v => Host.reduceAdd (F := Ideal) (φ := .f32) x v reducesTo_S1000000x128_S1000000_d1 h_S_),
    TRef.unary main_call1.v0 main_call1.v1 (broadcastInDim S1000000x1 ![0] bcast_S1000000_S1000000x1_0),
    TRef.nullary main_call1.cst_0 (constant (F := Ideal) S_ .f32 0x43000000#32),
    TRef.unary main_call1.cst_0 main_call1.v2 (broadcastInDim S1000000x1 ![] bcast_S_S1000000x1),
    TRef.binary main_call1.v1 main_call1.v2 main_call1.v3 (Host.divf (F := Ideal) (φ := .f32)),
    TRef.unary main_call1.v3 main_call1.v4 (broadcastInDim S1000000x128 ![0, 1] bcast_S1000000x1_S1000000x128_0_1),
    TRef.binary (TRef.of main_v30 : TRef sig ⟨S1000000x128, .f32⟩) main_call1.v4 main_call1.v5 (subf (F := Ideal) (φ := .f32)),
    TRef.binary main_call1.v5 main_call1.v5 main_call1.v6 (mulf (F := Ideal) (φ := .f32)),
    TRef.unary (TRef.of main_c_4 : TRef sig ⟨S_, .i32⟩) main_call1.v7 (sitofp (F := Ideal) .f32),
    TRef.nullary main_call1.cst_1 (constant (F := Ideal) S_ .f32 0x43000000#32),
    TRef.binary main_call1.cst_1 main_call1.v7 main_call1.v8 (subf (F := Ideal) (φ := .f32)),
    TRef.nullary main_call1.cst_2 (constant (F := Ideal) S_ .f32 0x00000000#32),
    TRef.binary main_call1.v6 main_call1.cst_2 main_call1.v9 (fun x v => Host.reduceAdd (F := Ideal) (φ := .f32) x v reducesTo_S1000000x128_S1000000_d1 h_S_),
    TRef.unary main_call1.v9 main_call1.v10 (broadcastInDim S1000000x1 ![0] bcast_S1000000_S1000000x1_0),
    TRef.unary main_call1.v8 main_call1.v11 (broadcastInDim S1000000x1 ![] bcast_S_S1000000x1),
    TRef.binary main_call1.v10 main_call1.v11 main_call1.v12 (Host.divf (F := Ideal) (φ := .f32)),
    TRef.nullary main_call1.cst_3 (constant (F := Ideal) S_ .f32 0x00000000#32),
    TRef.binary main_call1.v8 main_call1.cst_3 main_call1.v13 (cmpf (F := Ideal) (φ := .f32) .ogt),
    TRef.nullary main_call1.cst_4 (constant (F := Ideal) S_ .f32 0x7FC00000#32),
    TRef.unary main_call1.cst_4 main_call1.call0.v0 id,
    TRef.unary main_call1.call0.v0 main_call1.call0.v1 (broadcastInDim S1000000x1 ![] bcast_S_S1000000x1),
    TRef.ternary main_call1.v13 main_call1.v12 main_call1.call0.v1 main_call1.call0.v2 (fun p a b => select (broadcastInDim S1000000x1 ![] bcast_S_S1000000x1 p) a b) ]

/-- %36–%48 with the constant among them. -/
abbrev ops3 : List (HloOp τ sig (Elt Ideal)) :=
  [ unary main_v34 main_v36 (broadcastInDim S1000000x128 ![0, 1] bcast_S1000000x1_S1000000x128_0_1 : FVec Ideal S1000000x1 .f32 → FVec Ideal S1000000x128 .f32),
    binary main_v30 main_v36 main_v37 (subf : FVec Ideal S1000000x128 .f32 → FVec Ideal S1000000x128 .f32 → FVec Ideal S1000000x128 .f32),
    nullary main_cst_5 (constant (F := Ideal) S_ .f32 0x3727C5AC#32),
    unary main_cst_5 main_v38 (broadcastInDim S1000000x1 ![] bcast_S_S1000000x1 : FVec Ideal S_ .f32 → FVec Ideal S1000000x1 .f32),
    binary main_v35 main_v38 main_v39 (addf : FVec Ideal S1000000x1 .f32 → FVec Ideal S1000000x1 .f32 → FVec Ideal S1000000x1 .f32),
    unary main_v39 main_v40 (Host.rsqrt : FVec Ideal S1000000x1 .f32 → FVec Ideal S1000000x1 .f32),
    unary main_v40 main_v41 (broadcastInDim S1000000x128 ![0, 1] bcast_S1000000x1_S1000000x128_0_1 : FVec Ideal S1000000x1 .f32 → FVec Ideal S1000000x128 .f32),
    binary main_v37 main_v41 main_v42 (mulf : FVec Ideal S1000000x128 .f32 → FVec Ideal S1000000x128 .f32 → FVec Ideal S1000000x128 .f32),
    unary main_arg11 main_v43 (broadcastInDim S1x128 ![1] bcast_S128_S1x128_1 : FVec Ideal S128 .f32 → FVec Ideal S1x128 .f32),
    unary main_v43 main_v44 (broadcastInDim S1000000x128 ![0, 1] bcast_S1x128_S1000000x128_0_1 : FVec Ideal S1x128 .f32 → FVec Ideal S1000000x128 .f32),
    binary main_v42 main_v44 main_v45 (mulf : FVec Ideal S1000000x128 .f32 → FVec Ideal S1000000x128 .f32 → FVec Ideal S1000000x128 .f32),
    unary main_arg12 main_v46 (broadcastInDim S1x128 ![1] bcast_S128_S1x128_1 : FVec Ideal S128 .f32 → FVec Ideal S1x128 .f32),
    unary main_v46 main_v47 (broadcastInDim S1000000x128 ![0, 1] bcast_S1x128_S1000000x128_0_1 : FVec Ideal S1x128 .f32 → FVec Ideal S1000000x128 .f32),
    binary main_v45 main_v47 main_v48 (addf : FVec Ideal S1000000x128 .f32 → FVec Ideal S1000000x128 .f32 → FVec Ideal S1000000x128 .f32) ]

/-- @main's operations in order, each callee's listed at its call site over the call's record. -/
abbrev ops : List (HloOp τ sig (Elt Ideal)) := ops1 ++ opsSilu ++ ops2 ++ opsVar ++ ops3

/-- Two lines run one after the other: the second folds over what the first leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- An operation whose written buffer is one of the listed references writes within the list. -/
theorem writes_sub_of_mem {W : List (Ref sig .tc)} {op : HloOp τ sig (Elt Ideal)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-! ## @main is the line -/

/-- @main is that straight line: each call is its callee's body over the call's buffers, and a
    sequence of sequences is one sequence, both by unfolding. -/
theorem main_eq (c : Dev nD) : main (F := Ideal) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## What each stretch leaves unwritten -/

/-- The buffers ops1 writes, in order. -/
abbrev written1 : List (Ref sig .tc) :=
  [main_v0, main_v1, main_v2, main_v3, main_v4, main_v5, main_v6, main_v7,
   main_v8, main_c, main_v9, main_v10, main_c_0, main_v11, main_v12, main_v13,
   main_v14, main_v15, main_v16, main_c_1, main_v17, main_v18, main_c_2, main_v19,
   main_v20, main_v21, main_v22, main_v23, main_v24]

/-- A buffer ops1 does not write keeps its contents. -/
theorem frame1 (V : Valuation τ sig (Elt Ideal)) (r : Ref sig .tc) (hr : r ∉ written1) :
    after ops1 V (r : DevRef τ sig) = V (r : DevRef τ sig) :=
  after_of_writes_sub ops1 V
    ⟨writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide)⟩ hr

/-- The buffers opsSilu writes, in order. -/
abbrev writtenSilu : List (Ref sig .tc) :=
  [main_call0_v0, main_call0_v1, main_call0_cst, main_call0_v2, main_call0_v3, main_call0_cst_0, main_call0_v4, main_call0_v5,
   main_v25]

/-- A buffer opsSilu does not write keeps its contents. -/
theorem frameSilu (V : Valuation τ sig (Elt Ideal)) (r : Ref sig .tc) (hr : r ∉ writtenSilu) :
    after opsSilu V (r : DevRef τ sig) = V (r : DevRef τ sig) :=
  after_of_writes_sub opsSilu V
    ⟨writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide)⟩ hr

/-- The buffers ops2 writes, in order. -/
abbrev written2 : List (Ref sig .tc) :=
  [main_v26, main_v27, main_v28, main_v29, main_v30, main_cst, main_v31, main_v32,
   main_cst_3, main_v33, main_v34, main_c_4]

/-- A buffer ops2 does not write keeps its contents. -/
theorem frame2 (V : Valuation τ sig (Elt Ideal)) (r : Ref sig .tc) (hr : r ∉ written2) :
    after ops2 V (r : DevRef τ sig) = V (r : DevRef τ sig) :=
  after_of_writes_sub ops2 V
    ⟨writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide)⟩ hr

/-- The buffers opsVar writes, in order. -/
abbrev writtenVar : List (Ref sig .tc) :=
  [main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_v12, main_call1_cst_3, main_call1_v13, main_call1_cst_4, main_call1_call0_v0, main_call1_call0_v1, main_v35]

/-- A buffer opsVar does not write keeps its contents. -/
theorem frameVar (V : Valuation τ sig (Elt Ideal)) (r : Ref sig .tc) (hr : r ∉ writtenVar) :
    after opsVar V (r : DevRef τ sig) = V (r : DevRef τ sig) :=
  after_of_writes_sub opsVar V
    ⟨writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide)⟩ hr

/-- The buffers ops3 writes, in order. -/
abbrev written3 : List (Ref sig .tc) :=
  [main_v36, main_v37, main_cst_5, main_v38, main_v39, main_v40, main_v41, main_v42,
   main_v43, main_v44, main_v45, main_v46, main_v47, main_v48]

/-- A buffer ops3 does not write keeps its contents. -/
theorem frame3 (V : Valuation τ sig (Elt Ideal)) (r : Ref sig .tc) (hr : r ∉ written3) :
    after ops3 V (r : DevRef τ sig) = V (r : DevRef τ sig) :=
  after_of_writes_sub ops3 V
    ⟨writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide), writes_sub_of_mem rfl (by decide),
      writes_sub_of_mem rfl (by decide), writes_sub_of_mem rfl (by decide)⟩ hr

/-! ## What each stretch computes -/

/-- After %0–%24 the sum's buffer holds the three projections summed, the node ones gathered. -/
theorem summed_eq (V : Valuation τ sig (Elt Ideal)) :
    after ops1 V (main_v24 : DevRef τ sig) = RefTerm.summed (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

/-- After @silu's operations its result buffer holds SiLU of its argument's contents. -/
theorem silu_eq (V : Valuation τ sig (Elt Ideal)) :
    after opsSilu V (main_v25 : DevRef τ sig) = RefTerm.silu (V (main_v24 : DevRef τ sig)) := by
  after_results_simp
  rfl

/-- After %26–%30 the hidden layer's buffer holds the second linear layer of the activations. -/
theorem hidden_eq (V : Valuation τ sig (Elt Ideal)) :
    after ops2 V (main_v30 : DevRef τ sig) = RefTerm.hidden (V (main_v25 : DevRef τ sig)) (V (main_arg9 : DevRef τ sig)) (V (main_arg10 : DevRef τ sig)) := by
  after_results_simp
  rfl

/-- After %31–%34 the mean's buffer holds the row means of what the hidden layer's buffer then holds. -/
theorem rowMean_eq (V : Valuation τ sig (Elt Ideal)) :
    after ops2 V (main_v34 : DevRef τ sig) = RefTerm.rowMean (after ops2 V (main_v30 : DevRef τ sig)) := by
  after_results_simp
  rfl

/-- The integer constant handed to @_var is 0. -/
theorem c4_eq (V : Valuation τ sig (Elt Ideal)) :
    after ops2 V (main_c_4 : DevRef τ sig) = (constantI S_ 32 0#32 : IVec S_ 32) := by
  after_results_simp

/-! An outlined function's operations move contents between a value's type and its buffer's type,
which are one type once the buffer is known: inside a composed term the moves cancel in pairs, and
at its two ends they are the identity. -/

/-- Contents moved to a typed reference's buffer type and back are unchanged. -/
theorem ofBuf_toBuf {T : BufTy} (x : TRef sig T) (v : T.Contents (Elt Ideal)) : x.ofBuf (x.toBuf v) = v := by
  simp only [TRef.ofBuf, TRef.toBuf, cast_cast, cast_eq]

/-- @_var's result, its first argument and its second, as typed references. -/
abbrev r35 : TRef sig ⟨S1000000x1, .f32⟩ := .of main_v35
abbrev r30 : TRef sig ⟨S1000000x128, .f32⟩ := .of main_v30
abbrev rc4 : TRef sig ⟨S_, .i32⟩ := .of main_c_4

theorem r35_toBuf (X : FVec Ideal S1000000x1 .f32) : r35.toBuf (Val := Elt Ideal) X = X := rfl
theorem r30_ofBuf (V : Valuation τ sig (Elt Ideal)) :
    (r30.ofBuf (V (main_v30 : DevRef τ sig)) : FVec Ideal S1000000x128 .f32) = (V (main_v30 : DevRef τ sig)) := rfl
theorem rc4_ofBuf (V : Valuation τ sig (Elt Ideal)) :
    (rc4.ofBuf (V (main_c_4 : DevRef τ sig)) : IVec S_ 32) = (V (main_c_4 : DevRef τ sig)) := rfl

/-- @_var's operations read at its result, the moves between value type and buffer type still at
    the two ends. -/
theorem rowVar_ends (V : Valuation τ sig (Elt Ideal))
    (hc : (V (main_c_4 : DevRef τ sig)) = (constantI S_ 32 0#32 : IVec S_ 32)) :
    after opsVar V (main_v35 : DevRef τ sig) = r35.toBuf (RefTerm.rowVar (r30.ofBuf (V (main_v30 : DevRef τ sig)))) := by
  after_results_simp
  simp only [ofBuf_toBuf]
  rw [(rc4_ofBuf V).trans hc]
  rfl

/-- After @_var's operations over a hidden layer and the integer 0, its result buffer holds the
    row variances of the hidden layer. -/
theorem rowVar_eq (V : Valuation τ sig (Elt Ideal))
    (hc : (V (main_c_4 : DevRef τ sig)) = (constantI S_ 32 0#32 : IVec S_ 32)) :
    after opsVar V (main_v35 : DevRef τ sig) = RefTerm.rowVar (V (main_v30 : DevRef τ sig)) :=
  (rowVar_ends V hc).trans ((r35_toBuf _).trans (congrArg RefTerm.rowVar (r30_ofBuf V)))

/-- After %36–%48, from contents in which the mean's and the variance's buffers hold the row means
    and row variances of the hidden layer's, the result buffer holds its normalization. -/
theorem normed_eq (V : Valuation τ sig (Elt Ideal))
    (hm : (V (main_v34 : DevRef τ sig)) = RefTerm.rowMean (V (main_v30 : DevRef τ sig)))
    (hv : (V (main_v35 : DevRef τ sig)) = RefTerm.rowVar (V (main_v30 : DevRef τ sig))) :
    after ops3 V (main_v48 : DevRef τ sig) = RefTerm.normed (V (main_v30 : DevRef τ sig)) (V (main_arg11 : DevRef τ sig)) (V (main_arg12 : DevRef τ sig)) := by
  after_results_simp
  rw [hm, hv]
  rfl

/-! ## The whole line -/

/-- The line's fold is the five stretches' folds, one over the other. -/
theorem ops_after (V : Valuation τ sig (Elt Ideal)) :
    after ops V = after ops3 (after opsVar (after ops2 (after opsSilu (after ops1 V)))) := by
  show after ((((ops1 ++ opsSilu) ++ ops2) ++ opsVar) ++ ops3) V = _
  rw [after_append, after_append, after_append, after_append]

/-- A buffer no stretch writes holds after the line what it held before. -/
theorem unwritten (V : Valuation τ sig (Elt Ideal)) (r : Ref sig .tc) (h1 : r ∉ written1) (h2 : r ∉ writtenSilu)
    (h3 : r ∉ written2) (h4 : r ∉ writtenVar) (h5 : r ∉ written3) :
    after ops V (r : DevRef τ sig) = V (r : DevRef τ sig) := by
  rw [ops_after, frame3 _ r h5, frameVar _ r h4, frame2 _ r h3, frameSilu _ r h2, frame1 _ r h1]

/-- After the line the result buffer holds RefTerm.result of what the argument buffers held before
    it: each stretch's value read from the contents the stretches before it leave, the buffers a
    later stretch reads carried unwritten through the stretches between. -/
theorem result_eq (V : Valuation τ sig (Elt Ideal)) :
    after ops V (main_v48 : DevRef τ sig) = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have h24 := summed_eq V
  have h25 := silu_eq (after ops1 V)
  have h30 := hidden_eq (after opsSilu (after ops1 V))
  have h34 := rowMean_eq (after opsSilu (after ops1 V))
  have h35 := rowVar_eq (after ops2 (after opsSilu (after ops1 V))) (c4_eq (after opsSilu (after ops1 V)))
  have k30 := frameVar (after ops2 (after opsSilu (after ops1 V))) main_v30 (by decide)
  have k34 := frameVar (after ops2 (after opsSilu (after ops1 V))) main_v34 (by decide)
  rw [ops_after, normed_eq (after opsVar (after ops2 (after opsSilu (after ops1 V)))) (by rw [k34, k30]; exact h34) (by rw [k30]; exact h35), k30, h30, h25, h24,
    frameVar _ main_arg11 (by decide), frame2 _ main_arg11 (by decide), frameSilu _ main_arg11 (by decide),
    frame1 _ main_arg11 (by decide),
    frameVar _ main_arg12 (by decide), frame2 _ main_arg12 (by decide), frameSilu _ main_arg12 (by decide),
    frame1 _ main_arg12 (by decide),
    frameSilu _ main_arg9 (by decide), frame1 _ main_arg9 (by decide),
    frameSilu _ main_arg10 (by decide), frame1 _ main_arg10 (by decide)]
  rfl

/-! ## The run -/

theorem ops1_sub : (ops1 : List (HloOp τ sig (Elt Ideal))).Forall fun op => op.bufs ⊆ tcRefs τ sig :=
  ⟨unary_bufs_sub .., binary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
theorem opsSilu_sub : (opsSilu : List (HloOp τ sig (Elt Ideal))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., binary_bufs_sub ..⟩
theorem ops2_sub : (ops2 : List (HloOp τ sig (Elt Ideal))).Forall fun op => op.bufs ⊆ tcRefs τ sig :=
  ⟨unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..⟩
theorem opsVar_sub : (opsVar : List (HloOp τ sig (Elt Ideal))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩
theorem ops3_sub : (ops3 : List (HloOp τ sig (Elt Ideal))).Forall fun op => op.bufs ⊆ tcRefs τ sig :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the line touches TensorCore references only. -/
theorem ops_sub : (ops : List (HloOp τ sig (Elt Ideal))).Forall fun op => op.bufs ⊆ tcRefs τ sig :=
  List.forall_iff_forall_mem.mpr fun op h => by
    rcases List.mem_append.mp h with h | h
    · rcases List.mem_append.mp h with h | h
      · rcases List.mem_append.mp h with h | h
        · rcases List.mem_append.mp h with h | h
          · exact List.forall_iff_forall_mem.mp ops1_sub op h
          · exact List.forall_iff_forall_mem.mp opsSilu_sub op h
        · exact List.forall_iff_forall_mem.mp ops2_sub op h
      · exact List.forall_iff_forall_mem.mp opsVar_sub op h
    · exact List.forall_iff_forall_mem.mp ops3_sub op h

theorem ops1_fresh : ∀ op ∈ (ops1 : List (HloOp τ sig (Elt Ideal))), op.fresh = ∅ := by
  intro _ h; (repeat (cases h with | head => rfl | tail _ h => ?_)); exact nomatch h
theorem opsSilu_fresh : ∀ op ∈ (opsSilu : List (HloOp τ sig (Elt Ideal))), op.fresh = ∅ := by
  intro _ h; (repeat (cases h with | head => rfl | tail _ h => ?_)); exact nomatch h
theorem ops2_fresh : ∀ op ∈ (ops2 : List (HloOp τ sig (Elt Ideal))), op.fresh = ∅ := by
  intro _ h; (repeat (cases h with | head => rfl | tail _ h => ?_)); exact nomatch h
theorem opsVar_fresh : ∀ op ∈ (opsVar : List (HloOp τ sig (Elt Ideal))), op.fresh = ∅ := by
  intro _ h; (repeat (cases h with | head => rfl | tail _ h => ?_)); exact nomatch h
theorem ops3_fresh : ∀ op ∈ (ops3 : List (HloOp τ sig (Elt Ideal))), op.fresh = ∅ := by
  intro _ h; (repeat (cases h with | head => rfl | tail _ h => ?_)); exact nomatch h

/-- Every operation of the line determines its results. -/
theorem ops_fresh : ∀ op ∈ (ops : List (HloOp τ sig (Elt Ideal))), op.fresh = ∅ := fun op h => by
  rcases List.mem_append.mp h with h | h
  · rcases List.mem_append.mp h with h | h
    · rcases List.mem_append.mp h with h | h
      · rcases List.mem_append.mp h with h | h
        · exact ops1_fresh op h
        · exact opsSilu_fresh op h
      · exact ops2_fresh op h
    · exact opsVar_fresh op h
  · exact ops3_fresh op h

/-- On every device, from any memory with zero counters: every weakly fair execution of @main
    terminates with the result buffer at RefTerm.result of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono
    (fun _ h c => ⟨(h c main_v48).trans (result_eq (launchContents m c)),
      (h c main_arg0).trans (unwritten (launchContents m c) main_arg0 (by decide) (by decide) (by decide) (by decide) (by decide)),
      (h c main_arg1).trans (unwritten (launchContents m c) main_arg1 (by decide) (by decide) (by decide) (by decide) (by decide)),
      (h c main_arg2).trans (unwritten (launchContents m c) main_arg2 (by decide) (by decide) (by decide) (by decide) (by decide)),
      (h c main_arg3).trans (unwritten (launchContents m c) main_arg3 (by decide) (by decide) (by decide) (by decide) (by decide)),
      (h c main_arg4).trans (unwritten (launchContents m c) main_arg4 (by decide) (by decide) (by decide) (by decide) (by decide)),
      (h c main_arg5).trans (unwritten (launchContents m c) main_arg5 (by decide) (by decide) (by decide) (by decide) (by decide)),
      (h c main_arg6).trans (unwritten (launchContents m c) main_arg6 (by decide) (by decide) (by decide) (by decide) (by decide)),
      (h c main_arg7).trans (unwritten (launchContents m c) main_arg7 (by decide) (by decide) (by decide) (by decide) (by decide)),
      (h c main_arg8).trans (unwritten (launchContents m c) main_arg8 (by decide) (by decide) (by decide) (by decide) (by decide)),
      (h c main_arg9).trans (unwritten (launchContents m c) main_arg9 (by decide) (by decide) (by decide) (by decide) (by decide)),
      (h c main_arg10).trans (unwritten (launchContents m c) main_arg10 (by decide) (by decide) (by decide) (by decide) (by decide)),
      (h c main_arg11).trans (unwritten (launchContents m c) main_arg11 (by decide) (by decide) (by decide) (by decide) (by decide)),
      (h c main_arg12).trans (unwritten (launchContents m c) main_arg12 (by decide) (by decide) (by decide) (by decide) (by decide))⟩)
    (run_seq scopedRefs_eq scopedSems_eq (defs (F := Ideal)) (main (F := Ideal)) (fun _ => ops) main_eq (fun _ => ops_sub) m ρ
      (fun _ => ops_fresh))

end Cert.ReferenceIdeal.RefRun

end
-- ==== Proof.LibNormHostForms.lean ====
/-
  The host spelling of SiLU and of layer normalisation.

  The host program spells x · logistic x as x · (1 / (1 + e^(−x))) with two broadcast constants 1.0; it reduces a row
  from a zero constant, broadcasts the sums to a column and divides by a broadcast constant; jnp's variance divides by
  the count less a converted integer 0 and keeps the quotient where that count is positive; the scale and the shift are
  vectors broadcast to one row and then down the rows. Read at the extended reals these are the plain functions of
  indices of LibNormRows: logistic is 1 / (1 + e^(−x)) by definition, the word 0x3F800000 is 1 and 0x43000000 is 128,
  the integer 0 converts to 0, 128 − 0 = 128 > 0, and a broadcast reads its operand with the broadcast coordinate
  dropped.
-/
import proofs.«429735_j71863392796798_1_alg».proof.Proof.LibDenseForms
import proofs.«429735_j71863392796798_1_alg».proof.Proof.LibNormForms

noncomputable section

open scoped BigOperators

namespace NormRows

open Idealize.ShloMosaic Idealize.ShloMosaic.ValueIdx DenseRows

/-! ## Two words -/

/-- The word of 1.0 is 1. -/
theorem ofBits_one : Ideal.ofBits .f32 0x3F800000#32 = 1 := by
  simp [Ideal.ofBits, Ideal.ieee, -EReal.coe_mul]; norm_num

/-- The word of 128.0 is 128. -/
theorem ofBits_128 : Ideal.ofBits .f32 0x43000000#32 = ((128 : ℝ) : EReal) := by
  simp [Ideal.ofBits, Ideal.ieee, -EReal.coe_mul]; norm_num

/-! ## Broadcasts read at an index -/

/-- A vector broadcast along axis 0 of a column reads, at (p, 0), the vector at p. -/
theorem bcastToCol_apply {m : Nat} (v : Col m) (h1 : (⟨1, ![m]⟩ : Shape).BroadcastsInDim ⟨2, ![m, 1]⟩ ![0]) (p : Fin m) :
    broadcastInDim (⟨2, ![m, 1]⟩ : Shape) ![0] h1 v (ix2 p (0 : Fin 1)) = v (ix1 p) :=
  broadcastInDim_apply ![0] h1 v (ix2 p (0 : Fin 1)) (ix1 p) (fun ax => by
    match ax with
    | ⟨0, _⟩ =>
      show p.val = if m = 1 then 0 else p.val
      split
      · have := p.isLt; omega
      · rfl)

/-- A column broadcast along axes (0, 1) reads, at (p, q), the column at p. -/
theorem bcastColHost_apply {m n : Nat} (col : Mat m 1)
    (h2 : (⟨2, ![m, 1]⟩ : Shape).BroadcastsInDim ⟨2, ![m, n]⟩ ![0, 1]) (p : Fin m) (q : Fin n) :
    broadcastInDim (⟨2, ![m, n]⟩ : Shape) ![0, 1] h2 col (ix2 p q) = col (ix2 p (0 : Fin 1)) :=
  broadcastInDim_apply ![0, 1] h2 col (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])

/-! ## The host's spellings -/

/-- x · (1 / (1 + e^(−x))), the ones broadcast constants 1.0, is SiLU. -/
theorem silu_host_form {m n : Nat} (Z : Mat m n) (hb : (⟨0, ![]⟩ : Shape).BroadcastsInDim ⟨2, ![m, n]⟩ ![]) :
    mulf Z (Host.divf
        (broadcastInDim (⟨2, ![m, n]⟩ : Shape) ![] hb (constant (⟨0, ![]⟩ : Shape) .f32 0x3F800000#32))
        (addf (broadcastInDim (⟨2, ![m, n]⟩ : Shape) ![] hb (constant (⟨0, ![]⟩ : Shape) .f32 0x3F800000#32))
          (Host.exp (Host.negf Z))))
      = silu Z := by
  funext i
  show Z i * Ideal.div (Ideal.ofBits .f32 0x3F800000#32) (Ideal.ofBits .f32 0x3F800000#32 + Ideal.exp (-(Z i)))
      = Z i * Ideal.logistic (Z i)
  rw [ofBits_one]
  rfl

/-- The row sums from zero, broadcast to a column and divided by a broadcast constant word w: the column of row
    means. -/
theorem meanCol_host_form {m n : Nat} (w : BitVec 32) (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h1 : (⟨1, ![m]⟩ : Shape).BroadcastsInDim ⟨2, ![m, 1]⟩ ![0])
    (h0 : (⟨0, ![]⟩ : Shape).BroadcastsInDim ⟨2, ![m, 1]⟩ ![]) :
    Host.divf
        (broadcastInDim (⟨2, ![m, 1]⟩ : Shape) ![0] h1
          (Host.reduceAdd Z (constant (⟨0, ![]⟩ : Shape) .f32 0x00000000#32) h' hu))
        (broadcastInDim (⟨2, ![m, 1]⟩ : Shape) ![] h0 (constant (⟨0, ![]⟩ : Shape) .f32 w))
      = meanCol (Ideal.ofBits .f32 w) Z := by
  funext i
  obtain ⟨p, u, rfl⟩ : ∃ (p : Fin m) (u : Fin 1), i = ix2 p u := ⟨i 0, i 1, eq_ix2 i⟩
  obtain rfl : u = 0 := Subsingleton.elim _ _
  show Ideal.div (broadcastInDim (⟨2, ![m, 1]⟩ : Shape) ![0] h1
        (Host.reduceAdd Z (constant (⟨0, ![]⟩ : Shape) .f32 0x00000000#32) h' hu) (ix2 p (0 : Fin 1)))
      (Ideal.ofBits .f32 w) = Ideal.div (∑ c : Fin n, Z (ix2 p c)) (Ideal.ofBits .f32 w)
  rw [bcastToCol_apply, hostSum_eq_rowSum Z h' h hu]

/-- Subtracting the column of row means, broadcast along the rows, centres every row. -/
theorem centered_host_form {m n : Nat} (d : EReal) (Z : Mat m n)
    (h2 : (⟨2, ![m, 1]⟩ : Shape).BroadcastsInDim ⟨2, ![m, n]⟩ ![0, 1]) :
    subf Z (broadcastInDim (⟨2, ![m, n]⟩ : Shape) ![0, 1] h2 (meanCol d Z)) = centered d Z := by
  funext i
  obtain ⟨p, q, rfl⟩ : ∃ (p : Fin m) (q : Fin n), i = ix2 p q := ⟨i 0, i 1, eq_ix2 i⟩
  show Z (ix2 p q) - broadcastInDim (⟨2, ![m, n]⟩ : Shape) ![0, 1] h2 (meanCol d Z) (ix2 p q)
      = Z (ix2 p q) - rowMean d Z p
  rw [bcastColHost_apply]
  rfl

/-- The count jnp's variance divides by, 128.0 less the converted integer 0, is 128. -/
theorem count_eq (j : (⟨0, ![]⟩ : Shape).Idx) :
    subf (constant (F := Ideal) (⟨0, ![]⟩ : Shape) .f32 0x43000000#32)
        (sitofp (F := Ideal) .f32 (constantI (⟨0, ![]⟩ : Shape) 32 0#32)) j
      = Ideal.ofBits .f32 0x43000000#32 := by
  show Ideal.ofBits .f32 0x43000000#32 - (((0#32 : BitVec 32).toInt : ℝ) : EReal) = Ideal.ofBits .f32 0x43000000#32
  rw [show ((0#32 : BitVec 32).toInt : ℝ) = 0 from by norm_num [BitVec.toInt_zero]]
  simp

/-- That count is positive: the test jnp's variance guards its quotient with is 1. -/
theorem count_pos (j : (⟨0, ![]⟩ : Shape).Idx) :
    cmpf .ogt
        (subf (constant (F := Ideal) (⟨0, ![]⟩ : Shape) .f32 0x43000000#32)
          (sitofp (F := Ideal) .f32 (constantI (⟨0, ![]⟩ : Shape) 32 0#32)))
        (constant (F := Ideal) (⟨0, ![]⟩ : Shape) .f32 0x00000000#32) j = 1#1 := by
  show Ideal.cmp .ogt
      (subf (constant (F := Ideal) (⟨0, ![]⟩ : Shape) .f32 0x43000000#32)
        (sitofp (F := Ideal) .f32 (constantI (⟨0, ![]⟩ : Shape) 32 0#32)) j)
      (Ideal.ofBits .f32 0x00000000#32) = 1#1
  rw [count_eq, Ideal.ofBits_zero_f32, ofBits_128]
  unfold Ideal.cmp
  have : ((0 : EReal) < ((128 : ℝ) : EReal)) := by exact_mod_cast (by norm_num : (0 : ℝ) < 128)
  simp [this]

/-- A rank-0 value broadcast to any shape reads, at every index, that value. -/
theorem bcastScalar_apply {t : Shape} {α : Type} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k (fun a => a.elim0)

/-- jnp's variance column of a centred matrix C: the row sums of C · C from zero, broadcast to a column, divided by the
    broadcast count 128.0 − 0, kept under the broadcast test that the count is positive (any fill elsewhere), is the
    column of row means of the squares. -/
theorem varCol_host_form {m n : Nat} (C : Mat m n) (fill : (⟨0, ![]⟩ : Shape).Idx → EReal)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h1 : (⟨1, ![m]⟩ : Shape).BroadcastsInDim ⟨2, ![m, 1]⟩ ![0])
    (h0 : (⟨0, ![]⟩ : Shape).BroadcastsInDim ⟨2, ![m, 1]⟩ ![]) :
    select
        (broadcastInDim (⟨2, ![m, 1]⟩ : Shape) ![] h0
          (cmpf .ogt
            (subf (constant (F := Ideal) (⟨0, ![]⟩ : Shape) .f32 0x43000000#32)
              (sitofp (F := Ideal) .f32 (constantI (⟨0, ![]⟩ : Shape) 32 0#32)))
            (constant (F := Ideal) (⟨0, ![]⟩ : Shape) .f32 0x00000000#32)))
        (Host.divf
          (broadcastInDim (⟨2, ![m, 1]⟩ : Shape) ![0] h1
            (Host.reduceAdd (mulf C C) (constant (⟨0, ![]⟩ : Shape) .f32 0x00000000#32) h' hu))
          (broadcastInDim (⟨2, ![m, 1]⟩ : Shape) ![] h0
            (subf (constant (F := Ideal) (⟨0, ![]⟩ : Shape) .f32 0x43000000#32)
              (sitofp (F := Ideal) .f32 (constantI (⟨0, ![]⟩ : Shape) 32 0#32)))))
        (broadcastInDim (⟨2, ![m, 1]⟩ : Shape) ![] h0 fill)
      = meanCol (Ideal.ofBits .f32 0x43000000#32) (sq C) := by
  funext i
  obtain ⟨p, u, rfl⟩ : ∃ (p : Fin m) (u : Fin 1), i = ix2 p u := ⟨i 0, i 1, eq_ix2 i⟩
  obtain rfl : u = 0 := Subsingleton.elim _ _
  have k : (⟨0, ![]⟩ : Shape).Idx := fun a => a.elim0
  show Scalar.select
      (broadcastInDim (⟨2, ![m, 1]⟩ : Shape) ![] h0
        (cmpf .ogt
          (subf (constant (F := Ideal) (⟨0, ![]⟩ : Shape) .f32 0x43000000#32)
            (sitofp (F := Ideal) .f32 (constantI (⟨0, ![]⟩ : Shape) 32 0#32)))
          (constant (F := Ideal) (⟨0, ![]⟩ : Shape) .f32 0x00000000#32)) (ix2 p (0 : Fin 1)))
      (Ideal.div
        (broadcastInDim (⟨2, ![m, 1]⟩ : Shape) ![0] h1
          (Host.reduceAdd (mulf C C) (constant (⟨0, ![]⟩ : Shape) .f32 0x00000000#32) h' hu) (ix2 p (0 : Fin 1)))
        (broadcastInDim (⟨2, ![m, 1]⟩ : Shape) ![] h0
          (subf (constant (F := Ideal) (⟨0, ![]⟩ : Shape) .f32 0x43000000#32)
            (sitofp (F := Ideal) .f32 (constantI (⟨0, ![]⟩ : Shape) 32 0#32))) (ix2 p (0 : Fin 1))))
      (broadcastInDim (⟨2, ![m, 1]⟩ : Shape) ![] h0 fill (ix2 p (0 : Fin 1)))
    = Ideal.div (∑ c : Fin n, sq C (ix2 p c)) (Ideal.ofBits .f32 0x43000000#32)
  rw [bcastScalar_apply _ h0 _ k, count_pos, bcastScalar_apply _ h0 _ k, count_eq, bcastToCol_apply,
    hostSum_eq_rowSum (mulf C C) h' h hu]
  rfl

/-- The centred value times the broadcast reciprocal square root of (the mean of its squares plus a broadcast constant
    word e), scaled and shifted by one-row values broadcast down the rows: layer normalisation. -/
theorem layerNorm_host_form {m n : Nat} (d : EReal) (e : BitVec 32) (Z : Mat m n) (g b : Mat 1 n)
    (h2 : (⟨2, ![m, 1]⟩ : Shape).BroadcastsInDim ⟨2, ![m, n]⟩ ![0, 1])
    (hr : (⟨2, ![1, n]⟩ : Shape).BroadcastsInDim ⟨2, ![m, n]⟩ ![0, 1])
    (h0 : (⟨0, ![]⟩ : Shape).BroadcastsInDim ⟨2, ![m, 1]⟩ ![]) :
    addf (mulf (mulf (centered d Z)
        (broadcastInDim (⟨2, ![m, n]⟩ : Shape) ![0, 1] h2
          (Host.rsqrt (addf (meanCol d (sq (centered d Z)))
            (broadcastInDim (⟨2, ![m, 1]⟩ : Shape) ![] h0 (constant (⟨0, ![]⟩ : Shape) .f32 e))))))
        (broadcastInDim (⟨2, ![m, n]⟩ : Shape) ![0, 1] hr g))
      (broadcastInDim (⟨2, ![m, n]⟩ : Shape) ![0, 1] hr b)
      = layerNorm d (Ideal.ofBits .f32 e) Z g b := by
  funext i
  obtain ⟨p, q, rfl⟩ : ∃ (p : Fin m) (q : Fin n), i = ix2 p q := ⟨i 0, i 1, eq_ix2 i⟩
  show centered d Z (ix2 p q)
        * broadcastInDim (⟨2, ![m, n]⟩ : Shape) ![0, 1] h2
            (Host.rsqrt (addf (meanCol d (sq (centered d Z)))
              (broadcastInDim (⟨2, ![m, 1]⟩ : Shape) ![] h0 (constant (⟨0, ![]⟩ : Shape) .f32 e)))) (ix2 p q)
        * broadcastInDim (⟨2, ![m, n]⟩ : Shape) ![0, 1] hr g (ix2 p q)
      + broadcastInDim (⟨2, ![m, n]⟩ : Shape) ![0, 1] hr b (ix2 p q)
      = centered d Z (ix2 p q) * Ideal.rsqrt (rowVar d Z p + Ideal.ofBits .f32 e) * g (ix2 (0 : Fin 1) q)
        + b (ix2 (0 : Fin 1) q)
  rw [bcastColHost_apply, broadcastInDim_oneRow_apply, broadcastInDim_oneRow_apply]
  rfl

end NormRows

end
-- ==== Proof.RefValue.lean ====
/-
  The reference's result in the specification's terms.

  Each stage of the reference's term is a function of LibDenseRows, LibNormRows and EdgeSpec: the three contractions
  with a transposed weight are matrix products, a bias vector broadcast to one row and down the rows is a bias row added
  to every row, the outlined SiLU is SiLU, the row mean, jnp's variance and the final scale-and-shift are the layer
  normalisation with divisor 128.0 and the printed ε. The transposes and the two gathers stay as they are printed: the
  kernel applies the same operations, and the two sides are joined by congruence.
-/
import proofs.«429735_j71863392796798_1_alg».proof.Proof.RefTerm
import proofs.«429735_j71863392796798_1_alg».proof.Proof.LibNormHostForms
import proofs.«429735_j71863392796798_1_alg».proof.Proof.EdgeSpec
import proofs.«429735_j71863392796798_1_alg».proof.Proof.Bridge

noncomputable section

namespace Cert.ReferenceIdeal.RefValue

open Idealize.ShloMosaic Idealize.ShloMosaic.ValueIdx DenseRows NormRows EdgeSpec
open Cert.ReferenceIdeal Cert.ReferenceIdeal.Facts₀ Cert.ReferenceIdeal.Facts Cert.ReferenceIdeal.RefTerm
open Cert.Bridge (trR refValue)

variable [Cert.ReferenceIdeal.Facts]

/-- The printed divisor 128.0 and ε, read at the extended reals. -/
abbrev d128 : EReal := Ideal.ofBits .f32 0x43000000#32
abbrev eps : EReal := Ideal.ofBits .f32 0x3727C5AC#32

/-- The printed contractions are the plain ones. -/
theorem dotE : dot_S1000000x128_S128x128_S1000000x128_1_0_0_1_n_n = DotDims.plain 1000000 128 128 := rfl
theorem dotN : dot_S100000x128_S128x128_S100000x128_1_0_0_1_n_n = DotDims.plain 100000 128 128 := rfl

theorem projE_eq (a0 : Mat 1000000 128) (a5 : Mat 128 128) : projE a0 a5 = mm a0 (trR a5) := by
  unfold projE
  rw [dotE, dotGeneral_plain_eq_mm]

theorem projSrc_eq (a1 : Mat 100000 128) (a6 : Mat 128 128) : projSrc a1 a6 = mm a1 (trR a6) := by
  unfold projSrc
  rw [dotN, dotGeneral_plain_eq_mm]

theorem projDst_eq (a2 : Mat 100000 128) (a7 : Mat 128 128) (a8 : Col 128) :
    projDst a2 a7 a8 = addRow (mm a2 (trR a7)) (asRow a8) := by
  unfold projDst
  rw [dotN, dotGeneral_plain_eq_mm, bias_host_form, broadcastInDim_asRow]

theorem silu_eq (x : Mat 1000000 128) : RefTerm.silu x = NormRows.silu x := by
  unfold RefTerm.silu
  exact silu_host_form x bcast_S_S1000000x128

theorem hidden_eq (x : Mat 1000000 128) (a9 : Mat 128 128) (a10 : Col 128) :
    RefTerm.hidden x a9 a10 = addRow (mm x (trR a9)) (asRow a10) := by
  unfold RefTerm.hidden
  rw [dotE, dotGeneral_plain_eq_mm, bias_host_form, broadcastInDim_asRow]

theorem rowMean_eq (h : Mat 1000000 128) : RefTerm.rowMean h = meanCol d128 h := by
  unfold RefTerm.rowMean
  exact meanCol_host_form 0x43000000#32 h reducesTo_S1000000x128_S1000000_d1 (by decide) h_S_
    bcast_S1000000_S1000000x1_0 bcast_S_S1000000x1

theorem centered_eq (h : Mat 1000000 128) : RefTerm.centered h = NormRows.centered d128 h := by
  unfold RefTerm.centered
  rw [rowMean_eq, centered_host_form]

theorem rowVar_eq (h : Mat 1000000 128) : RefTerm.rowVar h = meanCol d128 (sq (NormRows.centered d128 h)) := by
  unfold RefTerm.rowVar RefTerm.varCount
  rw [centered_eq]
  exact varCol_host_form (NormRows.centered d128 h) _ reducesTo_S1000000x128_S1000000_d1 (by decide) h_S_
    bcast_S1000000_S1000000x1_0 bcast_S_S1000000x1

theorem normed_eq (h : Mat 1000000 128) (a11 a12 : Col 128) :
    RefTerm.normed h a11 a12 = layerNorm d128 eps h (asRow a11) (asRow a12) := by
  unfold RefTerm.normed
  rw [centered_eq, rowVar_eq, broadcastInDim_asRow, broadcastInDim_asRow]
  exact layerNorm_host_form d128 0x3727C5AC#32 h (asRow a11) (asRow a12) _ _ _

/-- The reference's result is the edge update of the edge features, of the two node projections gathered at the
    wrapped index columns, and of the transposed weights and the bias, scale and shift rows. -/
theorem result_eq (a0 : Mat 1000000 128) (a1 a2 : Mat 100000 128) (a3 a4 : IVec S1000000 32)
    (a5 a6 a7 : Mat 128 128) (a8 : Col 128) (a9 : Mat 128 128) (a10 a11 a12 : Col 128) :
    RefTerm.result a0 a1 a2 a3 a4 a5 a6 a7 a8 a9 a10 a11 a12 = refValue a0 a1 a2 a3 a4 a5 a6 a7 a8 a9 a10 a11 a12 := by
  unfold RefTerm.result RefTerm.summed
  rw [normed_eq, hidden_eq, silu_eq, projE_eq, projSrc_eq, projDst_eq]
  rfl

end Cert.ReferenceIdeal.RefValue

end
-- ==== Proof.lean ====
/-
  The kernel is three launches with two row gathers between them: two node projections (a table of 100000 node
  features times a transposed 128 × 128 weight, plus a bias row; 50 tiles of 2000 rows), each gathered to the 1000000
  edges by an index argument in fill mode, and a fused edge update over 200 tiles of 5000 rows: the edge features times
  a transposed weight, plus the two gathered projections, x · logistic x, times a second transposed weight plus a bias
  row, and a layer normalisation of every row with a scale and a shift row. The reference is the same mathematics on
  whole arrays, its gathers plain.

  Every operation after the gathers is row-local, so a tile of rows computed from tiles of the operands is that tile of
  the whole result, and the tiles cover the arrays: each region's output array is the whole-array function of its
  operand arrays. The two programs wrap a negative index alike; the kernel's gather then puts a not-a-number fill where
  the wrapped index leaves [0, 99999], while the reference's reads a clamped row. Under the precondition every index
  lies in [−100000, 100000), the wrapped index lies in [0, 99999], the fill is never taken, and both gathers are the
  same gather of the same table at the same index column. A sum accumulated into a zero accumulator is the sum, a zero
  bias row adds nothing, a lane sum kept as a column and the host's reduce are the row's sum, and x · logistic x is
  x · (1 / (1 + e^(−x))) by logistic's definition. No law of arithmetic that fails at the infinities is used, so the
  finiteness of the float inputs is never opened; only the index ranges are.

  frame_Kernel and frame_KernelIdeal are the generated frames. frame_ReferenceIdeal is the reference's run with the
  result dropped. preserves holds trivially: the ideal pass rewrote nothing.
-/
import proofs.«429735_j71863392796798_1_alg».proof.Defs
import proofs.«429735_j71863392796798_1_alg».proof.Proof.Gen.Kernel.Frame
import proofs.«429735_j71863392796798_1_alg».proof.Proof.Gen.KernelIdeal.Frame
import proofs.«429735_j71863392796798_1_alg».proof.Proof.Gen.ReferenceIdeal
import proofs.«429735_j71863392796798_1_alg».proof.Proof.Gen.Pre_finite_inputs
import proofs.«429735_j71863392796798_1_alg».proof.Proof.KernelRun
import proofs.«429735_j71863392796798_1_alg».proof.Proof.KernelValue
import proofs.«429735_j71863392796798_1_alg».proof.Proof.Bridge
import proofs.«429735_j71863392796798_1_alg».proof.Proof.PreRanges
import proofs.«429735_j71863392796798_1_alg».proof.Proof.RefRun
import proofs.«429735_j71863392796798_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run (Cert.ReferenceIdeal.defs (F := Ideal)) _ _).mono (fun _ h c => (h c).2) (Cert.ReferenceIdeal.RefRun.run m ρ)

/-- The ideal pass rewrote no operation. -/
theorem preserves : Cert.preserves_Kernel_KernelIdeal := trivial

/-- Both runs end with the result buffer at one function of the arguments: the kernel's by the regions' values folded
    through @main, the reference's by its run read in the specification's terms, the two joined under the index ranges
    the precondition states. -/
theorem algebraic : Cert.algebraic_KernelIdeal_ReferenceIdeal := by
  intro m ρ m' ρ' hpre hagree
  refine ⟨fun c => Cert.Bridge.kernelValue
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.KernelIdeal.KernelValue.result m ρ c), (h c).2⟩)
      (Cert.KernelIdeal.KernelRun.run (F := Ideal) m ρ)
  · refine (θ_run (Cert.ReferenceIdeal.defs (F := Ideal)) _ _).mono (fun r h c => ⟨(h c).1.trans ?_, (h c).2⟩)
      (Cert.ReferenceIdeal.RefRun.run m' ρ')
    obtain ⟨e0, e1, e2, e3, e4, e5, e6, e7, e8, e9, e10, e11, e12⟩ := hagree c
    obtain ⟨h3, h4⟩ := Cert.PreRanges.ranges _ _ _ _ _ _ _ _ _ _ _ _ _ (hpre c)
    rw [Cert.ReferenceIdeal.RefValue.result_eq, e0, e1, e2, e3, e4, e5, e6, e7, e8, e9, e10, e11, e12]
    exact (Cert.Bridge.value_eq _ _ _ _ _ _ _ _ _ _ _ _ _ h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
